-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1 : Shape := ⟨2, ![4096, 1]⟩
abbrev S4096x41024 : Shape := ⟨2, ![4096, 41024]⟩
abbrev S256x41024 : Shape := ⟨2, ![256, 41024]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S_ : Shape := ⟨0, ![]⟩

class Facts : Prop where
  bcast_S_S4096x1 : S_.BroadcastsInDim S4096x1 (![] : Fin 0 → Fin S4096x1.rank)
  reducesTo_S4096x1_S_d0_1 : S4096x1.ReducesTo [0, 1] S_
  h_S_ : 0 < S_.numel
  bcast_S_S4096x41024 : S_.BroadcastsInDim S4096x41024 (![] : Fin 0 → Fin S4096x41024.rank)
  reducesTo_S4096x41024_S_d0_1 : S4096x41024.ReducesTo [0, 1] S_
  bcast_S_S256x41024 : S_.BroadcastsInDim S256x41024 (![] : Fin 0 → Fin S256x41024.rank)
  reducesTo_S256x41024_S_d0_1 : S256x41024.ReducesTo [0, 1] S_
  bcast_S_S256 : S_.BroadcastsInDim S256 (![] : Fin 0 → Fin S256.rank)
  reducesTo_S256_S_d0 : S256.ReducesTo [0] S_
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S1x32 .f32) (main_v50 : FVec F S1x32 .f32) : IVec S_ 1 :=
  let main_v51 : IVec S1x32 1 := cmpf .olt main_v49 main_v50
  let main_c_19 : IVec S_ 1 := constantI S_ 1 1#1
  let main_v52 : IVec S_ 1 := (fun x v => Host.reduce IntOp.andi x v reducesTo_S1x32_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S32 .f32) (main_arg8 : FVec F S32x32 .f32) (main_arg9 : FVec F S32 .f32) (main_arg10 : FVec F S1x32 .f32) (main_arg11 : FVec F S1 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x32 .f32 := Host.absf main_arg8
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S1x32 .f32 := Host.absf main_arg10
  let main_cst_18 : FVec F S_ .f32 := constant S_ .f32 0x7F800000#32
  let main_v50 : FVec F S1x32 .f32 := broadcastInDim S1x32 ![] bcast_S_S1x32 main_cst_18
  fn_part3 (F := F) main_arg11 main_v48 main_v49 main_v50

def fn_part1 {F : FTy → Type} [FloatOps F] (main_arg4 : FVec F S256x41024 .f32) (main_arg5 : FVec F S256 .f32) (main_arg6 : FVec F S32x512 .f32) (main_arg7 : FVec F S32 .f32) (main_arg8 : FVec F S32x32 .f32) (main_arg9 : FVec F S32 .f32) (main_arg10 : FVec F S1x32 .f32) (main_arg11 : FVec F S1 .f32) (main_v13 : IVec S_ 1) (main_v16 : IVec S4096x41024 1) : IVec S_ 1 :=
  let main_c_5 : IVec S_ 1 := constantI S_ 1 1#1
  let main_v17 : IVec S_ 1 := (fun x v => Host.reduce IntOp.andi x v reducesTo_S4096x41024_S_d0_1 h_S_) main_v16 main_c_5
  let main_v18 : IVec S_ 1 := andi main_v13 main_v17
  let main_v19 : FVec F S256x41024 .f32 := Host.absf main_arg4
  let main_cst_6 : FVec F S_ .f32 := constant S_ .f32 0x7F800000#32
  let main_v20 : FVec F S256x41024 .f32 := broadcastInDim S256x41024 ![] bcast_S_S256x41024 main_cst_6
  let main_v21 : IVec S256x41024 1 := cmpf .olt main_v19 main_v20
  let main_c_7 : IVec S_ 1 := constantI S_ 1 1#1
  let main_v22 : IVec S_ 1 := (fun x v => Host.reduce IntOp.andi x v reducesTo_S256x41024_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S32x512 .f32 := Host.absf main_arg6
  let main_cst_10 : FVec F S_ .f32 := constant S_ .f32 0x7F800000#32
  let main_v30 : FVec F S32x512 .f32 := broadcastInDim S32x512 ![] bcast_S_S32x512 main_cst_10
  let main_v31 : IVec S32x512 1 := cmpf .olt main_v29 main_v30
  let main_c_11 : IVec S_ 1 := constantI S_ 1 1#1
  let main_v32 : IVec S_ 1 := (fun x v => Host.reduce IntOp.andi x v reducesTo_S32x512_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S4096x1 .f32) (main_arg1 : FVec F S4096x1 .f32) (main_arg2 : FVec F S4096x41024 .f32) (main_arg3 : FVec F S4096x41024 .f32) (main_arg4 : FVec F S256x41024 .f32) (main_arg5 : FVec F S256 .f32) (main_arg6 : FVec F S32x512 .f32) (main_arg7 : FVec F S32 .f32) (main_arg8 : FVec F S32x32 .f32) (main_arg9 : FVec F S32 .f32) (main_arg10 : FVec F S1x32 .f32) (main_arg11 : FVec F S1 .f32) : IVec S_ 1 :=
  let main_v0 : FVec F S4096x1 .f32 := Host.absf main_arg0
  let main_cst : FVec F S_ .f32 := constant S_ .f32 0x7F800000#32
  let main_v1 : FVec F S4096x1 .f32 := broadcastInDim S4096x1 ![] bcast_S_S4096x1 main_cst
  let main_v2 : IVec S4096x1 1 := cmpf .olt main_v0 main_v1
  let main_c : IVec S_ 1 := constantI S_ 1 1#1
  let main_v3 : IVec S_ 1 := (fun x v => Host.reduce IntOp.andi x v reducesTo_S4096x1_S_d0_1 h_S_) main_v2 main_c
  let main_v4 : FVec F S4096x1 .f32 := Host.absf main_arg1
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S4096x41024 .f32 := Host.absf main_arg2
  let main_cst_2 : FVec F S_ .f32 := constant S_ .f32 0x7F800000#32
  let main_v10 : FVec F S4096x41024 .f32 := broadcastInDim S4096x41024 ![] bcast_S_S4096x41024 main_cst_2
  let main_v11 : IVec S4096x41024 1 := cmpf .olt main_v9 main_v10
  let main_c_3 : IVec S_ 1 := constantI S_ 1 1#1
  let main_v12 : IVec S_ 1 := (fun x v => Host.reduce IntOp.andi x v reducesTo_S4096x41024_S_d0_1 h_S_) main_v11 main_c_3
  let main_v13 : IVec S_ 1 := andi main_v8 main_v12
  let main_v14 : FVec F S4096x41024 .f32 := Host.absf main_arg3
  let main_cst_4 : FVec F S_ .f32 := constant S_ .f32 0x7F800000#32
  let main_v15 : FVec F S4096x41024 .f32 := broadcastInDim S4096x41024 ![] bcast_S_S4096x41024 main_cst_4
  let main_v16 : IVec S4096x41024 1 := cmpf .olt main_v14 main_v15
  fn_part1 (F := F) main_arg4 main_arg5 main_arg6 main_arg7 main_arg8 main_arg9 main_arg10 main_arg11 main_v13 main_v16
-- ==== Kernel.lean ====
abbrev S4096x1 : Shape := ⟨2, ![4096, 1]⟩
abbrev S4096x41024 : Shape := ⟨2, ![4096, 41024]⟩
abbrev S256x41024 : Shape := ⟨2, ![256, 41024]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S_ : Shape := ⟨0, ![]⟩
abbrev S4096x41984 : Shape := ⟨2, ![4096, 41984]⟩
abbrev S41024x256 : Shape := ⟨2, ![41024, 256]⟩
abbrev S41984x256 : Shape := ⟨2, ![41984, 256]⟩
abbrev S1x256 : Shape := ⟨2, ![1, 256]⟩
abbrev S512x32 : Shape := ⟨2, ![512, 32]⟩
abbrev S32x1 : Shape := ⟨2, ![32, 1]⟩
abbrev S1x1 : Shape := ⟨2, ![1, 1]⟩
abbrev S1024x1024 : Shape := ⟨2, ![1024, 1024]⟩
abbrev S1024x256 : Shape := ⟨2, ![1024, 256]⟩
abbrev S1024x1 : Shape := ⟨2, ![1024, 1]⟩
abbrev S1024x512 : Shape := ⟨2, ![1024, 512]⟩
abbrev S1024x32 : Shape := ⟨2, ![1024, 32]⟩

abbrev nBuf : Space → Nat
  | .hbm => 30
  | .vmem => 21
  | .smem => 0
  | _ => 0

abbrev bufTy : (tb : Table) → Fin (tcTables nBuf tb) → BufTy
  | .hbm, ⟨0, _⟩ => ⟨S4096x1, .f32⟩
  | .hbm, ⟨1, _⟩ => ⟨S4096x1, .f32⟩
  | .hbm, ⟨2, _⟩ => ⟨S4096x41024, .f32⟩
  | .hbm, ⟨3, _⟩ => ⟨S4096x41024, .f32⟩
  | .hbm, ⟨4, _⟩ => ⟨S256x41024, .f32⟩
  | .hbm, ⟨5, _⟩ => ⟨S256, .f32⟩
  | .hbm, ⟨6, _⟩ => ⟨S32x512, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S1x32, .f32⟩
  | .hbm, ⟨11, _⟩ => ⟨S1, .f32⟩
  | .hbm, ⟨12, _⟩ => ⟨S_, .i32⟩
  | .hbm, ⟨13, _⟩ => ⟨S_, .f32⟩
  | .hbm, ⟨14, _⟩ => ⟨S4096x41984, .f32⟩
  | .hbm, ⟨15, _⟩ => ⟨S_, .i32⟩
  | .hbm, ⟨16, _⟩ => ⟨S_, .f32⟩
  | .hbm, ⟨17, _⟩ => ⟨S4096x41984, .f32⟩
  | .hbm, ⟨18, _⟩ => ⟨S41024x256, .f32⟩
  | .hbm, ⟨19, _⟩ => ⟨S_, .i32⟩
  | .hbm, ⟨20, _⟩ => ⟨S_, .f32⟩
  | .hbm, ⟨21, _⟩ => ⟨S41984x256, .f32⟩
  | .hbm, ⟨22, _⟩ => ⟨S1x256, .f32⟩
  | .hbm, ⟨23, _⟩ => ⟨S512x32, .f32⟩
  | .hbm, ⟨24, _⟩ => ⟨S32x32, .f32⟩
  | .hbm, ⟨25, _⟩ => ⟨S32x1, .f32⟩
  | .hbm, ⟨26, _⟩ => ⟨S1x32, .f32⟩
  | .hbm, ⟨27, _⟩ => ⟨S1x32, .f32⟩
  | .hbm, ⟨28, _⟩ => ⟨S1x1, .f32⟩
  | .hbm, ⟨29, _⟩ => ⟨S4096x1, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x256, .f32⟩
  | .local _ .vmem, ⟨5, _⟩ => ⟨S1024x256, .f32⟩
  | .local _ .vmem, ⟨6, _⟩ => ⟨S1x256, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S512x32, .f32⟩
  | .local _ .vmem, ⟨12, _⟩ => ⟨S1x32, .f32⟩
  | .local _ .vmem, ⟨13, _⟩ => ⟨S32x32, .f32⟩
  | .local _ .vmem, ⟨14, _⟩ => ⟨S1x32, .f32⟩
  | .local _ .vmem, ⟨15, _⟩ => ⟨S32x1, .f32⟩
  | .local _ .vmem, ⟨16, _⟩ => ⟨S1x1, .f32⟩
  | .local _ .vmem, ⟨17, _⟩ => ⟨S1024x1, .f32⟩
  | .local _ .vmem, ⟨18, _⟩ => ⟨S1024x1, .f32⟩
  | .local _ .vmem, ⟨19, _⟩ => ⟨S1024x256, .f32⟩
  | .local _ .vmem, ⟨20, _⟩ => ⟨S1024x256, .f32⟩
  | _, _ => ⟨S4096x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_call0_v0 : Ref sig .tc := ⟨.hbm, 13, rfl⟩
abbrev main_v0 : Ref sig .tc := ⟨.hbm, 14, rfl⟩
abbrev main_c_0 : Ref sig .tc := ⟨.hbm, 15, rfl⟩
abbrev main_call1_v0 : Ref sig .tc := ⟨.hbm, 16, rfl⟩
abbrev main_v1 : Ref sig .tc := ⟨.hbm, 17, rfl⟩
abbrev main_v2 : Ref sig .tc := ⟨.hbm, 18, rfl⟩
abbrev main_c_1 : Ref sig .tc := ⟨.hbm, 19, rfl⟩
abbrev main_call2_v0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![4, 41], ![false, false]⟩

def k0_cond2 (i : grid0.Coords) : BitVec 1 :=
  let arg1 : BitVec 32 := BitVec.ofNat 32 (i 1).val
  let c40_i32 : BitVec 32 := 40#32
  let v24 : BitVec 1 := Scalar.cmpi .eq arg1 c40_i32
  let v25 : BitVec 32 := Scalar.extui v24
  let c0_i32_15 : BitVec 32 := 0#32
  let v26 : BitVec 1 := Scalar.cmpi .ne v25 c0_i32_15
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S512x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S32x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S32x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1024x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

class Facts₀ : Prop where
  pads_S4096x41024_S4096x41984_000_09600 : S4096x41024.Pads (![0, 0] : Fin 2 → Nat) ![0, 960] ![0, 0] S4096x41984
  h_S_ : 0 < S_.numel
  transposes_S256x41024_S41024x256_1_0 : S256x41024.Transposes [1, 0] S41024x256
  pads_S41024x256_S41984x256_09600_000 : S41024x256.Pads (![0, 0] : Fin 2 → Nat) ![960, 0] ![0, 0] S41984x256
  shapeCasts_S256_S1x256 : S256.ShapeCasts S1x256
  transposes_S32x512_S512x32_1_0 : S32x512.Transposes [1, 0] S512x32
  transposes_S32x32_S32x32_1_0 : S32x32.Transposes [1, 0] S32x32
  transposes_S1x32_S32x1_1_0 : S1x32.Transposes [1, 0] S32x1
  shapeCasts_S32_S1x32 : S32.ShapeCasts S1x32
  shapeCasts_S1_S1x1 : S1.ShapeCasts S1x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  concatenates_S1024x256_S1024x256_S1024x512_d1 : Shape.Concatenates [S1024x256, S1024x256] S1024x512 1
  inb_S1024x1_S1024x1_0_0 : ∀ a, (![0, 0] : Fin 2 → Nat) a + S1024x1.size a ≤ S1024x1.size a
  h_S1024x1 : 0 < S1024x1.numel
  broadcasts_S1024x1_S1024x512 : S1024x1.Broadcasts S1024x512
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1024x32 : S1x32.Broadcasts S1024x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  dot_S1024x1024_S1024x256_S1024x256_1_0_0_1_n_n_wf : DotDims.WF S1024x1024 S1024x256 S1024x256 [1] [0] [0] [1] [] []
  dot_S1024x512_S512x32_S1024x32_1_0_0_1_n_n_wf : DotDims.WF S1024x512 S512x32 S1024x32 [1] [0] [0] [1] [] []
  dot_S1024x32_S32x32_S1024x32_1_0_0_1_n_n_wf : DotDims.WF S1024x32 S32x32 S1024x32 [1] [0] [0] [1] [] []
  dot_S1024x32_S32x1_S1024x1_1_0_0_1_n_n_wf : DotDims.WF S1024x32 S32x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x41984.size a
  hwx0_0 : ∀ i : grid0.Coords, EltTy.bits .f32 = 32 ∨ (Rect.block (s := S4096x41984) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x41984.size a
  hwx0_1 : ∀ i : grid0.Coords, EltTy.bits .f32 = 32 ∨ (Rect.block (s := S4096x41984) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S41984x256.size a
  hwx0_2 : ∀ i : grid0.Coords, EltTy.bits .f32 = 32 ∨ (Rect.block (s := S41984x256) S1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .f32 = 32 ∨ (Rect.block (s := S4096x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S4096x1.size a
  hwx0_5 : ∀ i : grid0.Coords, EltTy.bits .f32 = 32 ∨ (Rect.block (s := S4096x1) S1024x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x32.size a ≤ S512x32.size a
  hwx0_6 : ∀ i : grid0.Coords, EltTy.bits .f32 = 32 ∨ (Rect.block (s := S512x32) S512x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x32.size a ≤ S32x32.size a
  hwx0_8 : ∀ i : grid0.Coords, EltTy.bits .f32 = 32 ∨ (Rect.block (s := S32x32) S32x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x32.size a ≤ S1x32.size a
  hwx0_9 : ∀ i : grid0.Coords, EltTy.bits .f32 = 32 ∨ (Rect.block (s := S1x32) S1x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S32x1.size a ≤ S32x1.size a
  hwx0_10 : ∀ i : grid0.Coords, EltTy.bits .f32 = 32 ∨ (Rect.block (s := S32x1) S32x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1024x1.size a ≤ S4096x1.size a
  hwx0_12 : ∀ i : grid0.Coords, EltTy.bits .f32 = 32 ∨ (Rect.block (s := S4096x1) S1024x1.size (cc0_transform_12 i) (hinb0_12 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x512_S512x32_S1024x32_1_0_0_1_n_n : DotDims S1024x512 S512x32 S1024x32 where
  lhsContracting := [1]
  rhsContracting := [0]
  lhsNonContracting := [0]
  rhsNonContracting := [1]
  lhsBatch := []
  rhsBatch := []
  wf := dot_S1024x512_S512x32_S1024x32_1_0_0_1_n_n_wf
def dot_S1024x32_S32x32_S1024x32_1_0_0_1_n_n : DotDims S1024x32 S32x32 S1024x32 where
  lhsContracting := [1]
  rhsContracting := [0]
  lhsNonContracting := [0]
  rhsNonContracting := [1]
  lhsBatch := []
  rhsBatch := []
  wf := dot_S1024x32_S32x32_S1024x32_1_0_0_1_n_n_wf
def dot_S1024x32_S32x1_S1024x1_1_0_0_1_n_n : DotDims S1024x32 S32x1 S1024x1 where
  lhsContracting := [1]
  rhsContracting := [0]
  lhsNonContracting := [0]
  rhsNonContracting := [1]
  lhsBatch := []
  rhsBatch := []
  wf := dot_S1024x32_S32x1_S1024x1_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S1024x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5) S512x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S32x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S1x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S32x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v10) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v11) S1024x1.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev idle0 : Fin 13 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun i => !(k0_cond2 i == 1#1) | ⟨_ + 13, h⟩ => absurd h (Nat.not_lt.2 (Nat.le_add_left _ _))

class Facts : Prop extends Facts₀ where

variable [Facts]
-- ==== ReferenceIdeal.lean ====
abbrev S4096x1 : Shape := ⟨2, ![4096, 1]⟩
abbrev S4096x41024 : Shape := ⟨2, ![4096, 41024]⟩
abbrev S256x41024 : Shape := ⟨2, ![256, 41024]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S41024x256 : Shape := ⟨2, ![41024, 256]⟩
abbrev S4096x256 : Shape := ⟨2, ![4096, 256]⟩
abbrev S1x256 : Shape := ⟨2, ![1, 256]⟩
abbrev S4096x512 : Shape := ⟨2, ![4096, 512]⟩
abbrev S_ : Shape := ⟨0, ![]⟩
abbrev S512x32 : Shape := ⟨2, ![512, 32]⟩
abbrev S4096x32 : Shape := ⟨2, ![4096, 32]⟩
abbrev S32x1 : Shape := ⟨2, ![32, 1]⟩
abbrev S1x1 : Shape := ⟨2, ![1, 1]⟩

abbrev nBuf : Space → Nat
  | .hbm => 68
  | .vmem => 0
  | .smem => 0
  | _ => 0

abbrev bufTy : (tb : Table) → Fin (tcTables nBuf tb) → BufTy
  | .hbm, ⟨0, _⟩ => ⟨S4096x1, .f32⟩
  | .hbm, ⟨1, _⟩ => ⟨S4096x1, .f32⟩
  | .hbm, ⟨2, _⟩ => ⟨S4096x41024, .f32⟩
  | .hbm, ⟨3, _⟩ => ⟨S4096x41024, .f32⟩
  | .hbm, ⟨4, _⟩ => ⟨S256x41024, .f32⟩
  | .hbm, ⟨5, _⟩ => ⟨S256, .f32⟩
  | .hbm, ⟨6, _⟩ => ⟨S32x512, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S1x32, .f32⟩
  | .hbm, ⟨11, _⟩ => ⟨S1, .f32⟩
  | .hbm, ⟨12, _⟩ => ⟨S41024x256, .f32⟩
  | .hbm, ⟨13, _⟩ => ⟨S4096x256, .f32⟩
  | .hbm, ⟨14, _⟩ => ⟨S1x256, .f32⟩
  | .hbm, ⟨15, _⟩ => ⟨S4096x256, .f32⟩
  | .hbm, ⟨16, _⟩ => ⟨S4096x256, .f32⟩
  | .hbm, ⟨17, _⟩ => ⟨S41024x256, .f32⟩
  | .hbm, ⟨18, _⟩ => ⟨S4096x256, .f32⟩
  | .hbm, ⟨19, _⟩ => ⟨S1x256, .f32⟩
  | .hbm, ⟨20, _⟩ => ⟨S4096x256, .f32⟩
  | .hbm, ⟨21, _⟩ => ⟨S4096x256, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S4096x512, .f32⟩
  | .hbm, ⟨33, _⟩ => ⟨S4096x512, .f32⟩
  | .hbm, ⟨34, _⟩ => ⟨S_, .f32⟩
  | .hbm, ⟨35, _⟩ => ⟨S4096x512, .f32⟩
  | .hbm, ⟨36, _⟩ => ⟨S4096x512, .f32⟩
  | .hbm, ⟨37, _⟩ => ⟨S512x32, .f32⟩
  | .hbm, ⟨38, _⟩ => ⟨S4096x32, .f32⟩
  | .hbm, ⟨39, _⟩ => ⟨S1x32, .f32⟩
  | .hbm, ⟨40, _⟩ => ⟨S4096x32, .f32⟩
  | .hbm, ⟨41, _⟩ => ⟨S4096x32, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4096x32, .f32⟩
  | .hbm, ⟨46, _⟩ => ⟨S4096x32, .f32⟩
  | .hbm, ⟨47, _⟩ => ⟨S_, .f32⟩
  | .hbm, ⟨48, _⟩ => ⟨S4096x32, .f32⟩
  | .hbm, ⟨49, _⟩ => ⟨S4096x32, .f32⟩
  | .hbm, ⟨50, _⟩ => ⟨S32x32, .f32⟩
  | .hbm, ⟨51, _⟩ => ⟨S4096x32, .f32⟩
  | .hbm, ⟨52, _⟩ => ⟨S1x32, .f32⟩
  | .hbm, ⟨53, _⟩ => ⟨S4096x32, .f32⟩
  | .hbm, ⟨54, _⟩ => ⟨S4096x32, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S4096x32, .f32⟩
  | .hbm, ⟨59, _⟩ => ⟨S4096x32, .f32⟩
  | .hbm, ⟨60, _⟩ => ⟨S_, .f32⟩
  | .hbm, ⟨61, _⟩ => ⟨S4096x32, .f32⟩
  | .hbm, ⟨62, _⟩ => ⟨S4096x32, .f32⟩
  | .hbm, ⟨63, _⟩ => ⟨S32x1, .f32⟩
  | .hbm, ⟨64, _⟩ => ⟨S4096x1, .f32⟩
  | .hbm, ⟨65, _⟩ => ⟨S1x1, .f32⟩
  | .hbm, ⟨66, _⟩ => ⟨S4096x1, .f32⟩
  | .hbm, ⟨67, _⟩ => ⟨S4096x1, .f32⟩
  | _, _ => ⟨S4096x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_1 : Ref sig .tc := ⟨.hbm, 42, rfl⟩
abbrev main_cst_2 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_3 : Ref sig .tc := ⟨.hbm, 55, rfl⟩
abbrev main_cst_4 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩

abbrev nD : Nat := 1
abbrev τ : Topo := Topo.v7x

variable {F : FTy → Type} [FloatOps F]

class Facts₀ : Prop where
  transposes_S256x41024_S41024x256_1_0 : S256x41024.Transposes [1, 0] S41024x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  concatenates_S4096x256_S4096x256_S4096x512_d1 : Shape.Concatenates [S4096x256, S4096x256] S4096x512 1
  bcast_S4096x1_S4096x512_0_1 : S4096x1.BroadcastsInDim S4096x512 (![0, 1] : Fin 2 → Fin S4096x512.rank)
  bcast_S_S4096x512 : S_.BroadcastsInDim S4096x512 (![] : Fin 0 → Fin S4096x512.rank)
  transposes_S32x512_S512x32_1_0 : S32x512.Transposes [1, 0] S512x32
  bcast_S32_S1x32_1 : S32.BroadcastsInDim S1x32 (![1] : Fin 1 → Fin S1x32.rank)
  bcast_S1x32_S4096x32_0_1 : S1x32.BroadcastsInDim S4096x32 (![0, 1] : Fin 2 → Fin S4096x32.rank)
  bcast_S_S4096x32 : S_.BroadcastsInDim S4096x32 (![] : Fin 0 → Fin S4096x32.rank)
  transposes_S32x32_S32x32_1_0 : S32x32.Transposes [1, 0] S32x32
  transposes_S1x32_S32x1_1_0 : S1x32.Transposes [1, 0] S32x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  dot_S4096x41024_S41024x256_S4096x256_1_0_0_1_n_n_wf : DotDims.WF S4096x41024 S41024x256 S4096x256 [1] [0] [0] [1] [] []
  dot_S4096x512_S512x32_S4096x32_1_0_0_1_n_n_wf : DotDims.WF S4096x512 S512x32 S4096x32 [1] [0] [0] [1] [] []
  dot_S4096x32_S32x32_S4096x32_1_0_0_1_n_n_wf : DotDims.WF S4096x32 S32x32 S4096x32 [1] [0] [0] [1] [] []
  dot_S4096x32_S32x1_S4096x1_1_0_0_1_n_n_wf : DotDims.WF S4096x32 S32x1 S4096x1 [1] [0] [0] [1] [] []

variable [Facts₀]

def dot_S4096x41024_S41024x256_S4096x256_1_0_0_1_n_n : DotDims S4096x41024 S41024x256 S4096x256 where
  lhsContracting := [1]
  rhsContracting := [0]
  lhsNonContracting := [0]
  rhsNonContracting := [1]
  lhsBatch := []
  rhsBatch := []
  wf := dot_S4096x41024_S41024x256_S4096x256_1_0_0_1_n_n_wf
def dot_S4096x512_S512x32_S4096x32_1_0_0_1_n_n : DotDims S4096x512 S512x32 S4096x32 where
  lhsContracting := [1]
  rhsContracting := [0]
  lhsNonContracting := [0]
  rhsNonContracting := [1]
  lhsBatch := []
  rhsBatch := []
  wf := dot_S4096x512_S512x32_S4096x32_1_0_0_1_n_n_wf
def dot_S4096x32_S32x32_S4096x32_1_0_0_1_n_n : DotDims S4096x32 S32x32 S4096x32 where
  lhsContracting := [1]
  rhsContracting := [0]
  lhsNonContracting := [0]
  rhsNonContracting := [1]
  lhsBatch := []
  rhsBatch := []
  wf := dot_S4096x32_S32x32_S4096x32_1_0_0_1_n_n_wf
def dot_S4096x32_S32x1_S4096x1_1_0_0_1_n_n : DotDims S4096x32 S32x1 S4096x1 where
  lhsContracting := [1]
  rhsContracting := [0]
  lhsNonContracting := [0]
  rhsNonContracting := [1]
  lhsBatch := []
  rhsBatch := []
  wf := dot_S4096x32_S32x1_S4096x1_1_0_0_1_n_n_wf

class Facts : Prop extends Facts₀ where

variable [Facts]
-- ==== Proof.Spec.lean ====
/-
  ONE ROW of the network's value, and the law that regroups a long sum.

  For a batch row, write `aW j = ∑ₖ w_in[row,k]·W_in[j,k]` and `aB j = ∑ₖ b_in[row,k]·W_in[j,k]` for the two feature-transform
  rows (256 entries each). Every later step uses only that row:
    w = aW + bias, b = aB + bias,
    l0 = clip (us·[w | b] + them·[b | w])            (512 entries),
    l1 = clip (l0·W1ᵀ + b1), l2 = clip (l1·W2ᵀ + b2)  (32 entries each),
    out = l2·Woᵀ + bo,
  with `clip x = min 1 (max 0 x)`, all on the extended reals. `rowOut` is that function. The two bounds stay the float
  words both programs print, so they are never evaluated.

  The second part is the one law that joins a blocked matrix product to the plain one: a sum over `J·B` terms is the
  sum over `J` blocks of `B` consecutive terms (addition on the extended reals is commutative and associative, so the
  grouping is free), and terms that vanish past `n` may be dropped (`x + 0 = x`). No finiteness is needed.
-/
import Idealize.ShloMosaic.PureOps.Ideal
import Idealize.ShloMosaic.PureOps.Ideal.Laws

noncomputable section

open scoped BigOperators

namespace Cert.Spec

open Idealize.ShloMosaic

/-! ## One row -/

/-- The lower clip bound, as both programs print it. -/
abbrev lo : EReal := Ideal.ofBits .f32 0x00000000#32
/-- The upper clip bound, as both programs print it. -/
abbrev hi : EReal := Ideal.ofBits .f32 0x3F800000#32

/-- `clip x`: the larger of the lower bound and `x`, then the smaller of the upper bound and that. -/
def clip (x : EReal) : EReal := min hi (max lo x)

/-- Entry `h` of two 256-entry rows laid side by side, `[u | v]`. -/
def cat (u v : Fin 256 → EReal) (h : Fin 512) : EReal :=
  if hh : h.val < 256 then u ⟨h.val, hh⟩ else v ⟨h.val - 256, by have := h.isLt; omega⟩

/-- The first layer's 512 activations of one row: `clip (us·[w | b] + them·[b | w])`. -/
def layer0 (us them : EReal) (w b : Fin 256 → EReal) (h : Fin 512) : EReal :=
  clip (us * cat w b h + them * cat b w h)

/-- A dense layer of one row followed by the clip: `clip (x·Wᵀ + β)` at output `p`, `W` given as `W p h`. -/
def dense {n : Nat} (x : Fin n → EReal) (W : Fin 32 → Fin n → EReal) (β : Fin 32 → EReal) (p : Fin 32) : EReal :=
  clip ((∑ h : Fin n, x h * W p h) + β p)

/-- The output neuron of one row: `x·Woᵀ + bo`. -/
def head (x : Fin 32 → EReal) (Wo : Fin 32 → EReal) (bo : EReal) : EReal :=
  (∑ q : Fin 32, x q * Wo q) + bo

/-- One row's value from its two feature-transform rows `aW`, `aB` (before the bias) and the weights. -/
def rowOut (us them : EReal) (aW aB bias : Fin 256 → EReal) (W1 : Fin 32 → Fin 512 → EReal) (b1 : Fin 32 → EReal)
    (W2 : Fin 32 → Fin 32 → EReal) (b2 : Fin 32 → EReal) (Wo : Fin 32 → EReal) (bo : EReal) : EReal :=
  head (dense (dense (layer0 us them (fun j => aW j + bias j) (fun j => aB j + bias j)) W1 b1) W2 b2) Wo bo

/-! ## A sum cut into equal blocks, with a zero tail -/

/-- A sum over `J·B` consecutive terms is the sum over `J` blocks of the sums of their `B` terms. -/
theorem sum_blocks {β : Type*} [AddCommMonoid β] (J B : Nat) (f : Nat → β) :
    ∑ s ∈ Finset.range J, ∑ q : Fin B, f (B * s + q.val) = ∑ k ∈ Finset.range (J * B), f k := by
  induction J with
  | zero => simp
  | succ J ih =>
    rw [Finset.sum_range_succ, ih, Nat.succ_mul, Finset.sum_range_add, Nat.mul_comm B J]
    congr 1
    rw [Finset.sum_range]

/-- Terms that vanish from `n` on may be dropped: the sum over the first `N ≥ n` naturals is the sum over `Fin n`. -/
theorem sum_range_zero_tail {β : Type*} [AddCommMonoid β] (n N : Nat) (hnN : n ≤ N) (f : Nat → β)
    (hz : ∀ k, n ≤ k → f k = 0) : ∑ k ∈ Finset.range N, f k = ∑ k : Fin n, f k.val := by
  rw [← Finset.sum_range (fun k => f k)]
  symm
  apply Finset.sum_subset (Finset.range_mono hnN)
  intro k _ hk
  exact hz k (by simpa using hk)

/-- The two together: `J` blocks of `B` terms, vanishing from `n ≤ J·B` on, sum to the sum over `Fin n`. -/
theorem sum_blocks_zero_tail {β : Type*} [AddCommMonoid β] (J B n : Nat) (hn : n ≤ J * B) (f : Nat → β)
    (hz : ∀ k, n ≤ k → f k = 0) :
    ∑ s ∈ Finset.range J, ∑ q : Fin B, f (B * s + q.val) = ∑ k : Fin n, f k.val := by
  rw [sum_blocks, sum_range_zero_tail n (J * B) hn f hz]

end Cert.Spec

end
-- ==== Proof.RefRow.lean ====
/-
  The reference, one row at a time: entry `(r, ·)` of its result is `Cert.Spec.rowOut` of row `r`'s two plain
  feature-transform rows `∑ₖ w_in[r,k]·W_in[j,k]`, `∑ₖ b_in[r,k]·W_in[j,k]` and the weights as the arguments hold them.
-/
import proofs.«156463_j14499809591732_1_alg».proof.Proof.Gen.ReferenceIdeal.Read
import proofs.«156463_j14499809591732_1_alg».proof.Proof.Spec
import Idealize.ShloMosaic.Lib.ValueIdx
import Idealize.ShloMosaic.Lib.Pipeline.Value
import Idealize.ShloMosaic.PureOps.Ideal.Laws

noncomputable section

open scoped BigOperators

namespace Cert.RefRow

open Cert.ReferenceIdeal Cert.ReferenceIdeal.Read Idealize.ShloMosaic Idealize.ShloMosaic.ValueIdx

/-! ## The stages' index maps at explicit coordinates

Each stage reads its operands at an index computed from the result's index. At a result index given by its coordinates
the operand's index is again given by coordinates: a row of the left factor, a row of the (transposed) weight matrix,
an entry of a bias vector, a row's scalar. -/

section Indices

/-- The first feature transform reads row `r` of its left factor … -/
theorem lidx_v1 (r : Fin 4096) (j : Fin 256) (k : Fin 41024) : lidx_main_v1 (ix2 r j) k = ix2 r k :=
  funext fun a => Fin.ext (by match a with | ⟨0, _⟩ => rfl | ⟨1, _⟩ => rfl)
/-- … and, through the transpose, row `j` of the weight matrix. -/
theorem ridx_v1 (r : Fin 4096) (j : Fin 256) (k : Fin 41024) : idx_main_v0 (ridx_main_v1 (ix2 r j) k) = ix2 j k :=
  funext fun a => Fin.ext (by match a with | ⟨0, _⟩ => rfl | ⟨1, _⟩ => rfl)
/-- Its bias is broadcast along the rows: entry `j`. -/
theorem bias_v3 (r : Fin 4096) (j : Fin 256) : idx_main_v2 (idx_main_v3 (ix2 r j)) = ix1 j :=
  funext fun a => Fin.ext (by match a with | ⟨0, _⟩ => rfl)
/-- The second feature transform reads row `r` of its left factor … -/
theorem lidx_v6 (r : Fin 4096) (j : Fin 256) (k : Fin 41024) : lidx_main_v6 (ix2 r j) k = ix2 r k :=
  funext fun a => Fin.ext (by match a with | ⟨0, _⟩ => rfl | ⟨1, _⟩ => rfl)
/-- … and row `j` of the same weight matrix. -/
theorem ridx_v6 (r : Fin 4096) (j : Fin 256) (k : Fin 41024) : idx_main_v5 (ridx_main_v6 (ix2 r j) k) = ix2 j k :=
  funext fun a => Fin.ext (by match a with | ⟨0, _⟩ => rfl | ⟨1, _⟩ => rfl)
/-- Its bias is the same vector's entry `j`. -/
theorem bias_v8 (r : Fin 4096) (j : Fin 256) : idx_main_v7 (idx_main_v8 (ix2 r j)) = ix1 j :=
  funext fun a => Fin.ext (by match a with | ⟨0, _⟩ => rfl)
/-- A row's scalar, broadcast along the 512 activations, is read at `(r, 0)`: the first mixing weight … -/
theorem idx_v11 (r : Fin 4096) (h : Fin 512) : idx_main_v11 (ix2 r h) = ix2 r (0 : Fin 1) :=
  funext fun a => Fin.ext (by match a with | ⟨0, _⟩ => rfl | ⟨1, _⟩ => rfl)
/-- … and the second. -/
theorem idx_v14 (r : Fin 4096) (h : Fin 512) : idx_main_v14 (ix2 r h) = ix2 r (0 : Fin 1) :=
  funext fun a => Fin.ext (by match a with | ⟨0, _⟩ => rfl | ⟨1, _⟩ => rfl)
/-- The first dense layer reads row `r` of the activations … -/
theorem lidx_v19 (r : Fin 4096) (p : Fin 32) (k : Fin 512) : lidx_main_v19 (ix2 r p) k = ix2 r k :=
  funext fun a => Fin.ext (by match a with | ⟨0, _⟩ => rfl | ⟨1, _⟩ => rfl)
/-- … row `p` of its weight matrix … -/
theorem ridx_v19 (r : Fin 4096) (p : Fin 32) (k : Fin 512) : idx_main_v18 (ridx_main_v19 (ix2 r p) k) = ix2 p k :=
  funext fun a => Fin.ext (by match a with | ⟨0, _⟩ => rfl | ⟨1, _⟩ => rfl)
/-- … and entry `p` of its bias. -/
theorem bias_v21 (r : Fin 4096) (p : Fin 32) : idx_main_v20 (idx_main_v21 (ix2 r p)) = ix1 p :=
  funext fun a => Fin.ext (by match a with | ⟨0, _⟩ => rfl)
/-- The second dense layer reads row `r` of the first layer's result … -/
theorem lidx_v25 (r : Fin 4096) (q : Fin 32) (k : Fin 32) : lidx_main_v25 (ix2 r q) k = ix2 r k :=
  funext fun a => Fin.ext (by match a with | ⟨0, _⟩ => rfl | ⟨1, _⟩ => rfl)
/-- … row `q` of its weight matrix … -/
theorem ridx_v25 (r : Fin 4096) (q : Fin 32) (k : Fin 32) : idx_main_v24 (ridx_main_v25 (ix2 r q) k) = ix2 q k :=
  funext fun a => Fin.ext (by match a with | ⟨0, _⟩ => rfl | ⟨1, _⟩ => rfl)
/-- … and entry `q` of its bias. -/
theorem bias_v27 (r : Fin 4096) (q : Fin 32) : idx_main_v26 (idx_main_v27 (ix2 r q)) = ix1 q :=
  funext fun a => Fin.ext (by match a with | ⟨0, _⟩ => rfl)
/-- The output neuron reads row `r` of the second layer's result … -/
theorem lidx_v31 (r : Fin 4096) (k : Fin 32) : lidx_main_v31 (ix2 r (0 : Fin 1)) k = ix2 r k :=
  funext fun a => Fin.ext (by match a with | ⟨0, _⟩ => rfl | ⟨1, _⟩ => rfl)
/-- … the one row of its weights … -/
theorem ridx_v31 (r : Fin 4096) (k : Fin 32) : idx_main_v30 (ridx_main_v31 (ix2 r (0 : Fin 1)) k) = ix2 (0 : Fin 1) k :=
  funext fun a => Fin.ext (by match a with | ⟨0, _⟩ => rfl | ⟨1, _⟩ => rfl)
/-- … and the one entry of its bias. -/
theorem bias_v33 (r : Fin 4096) : idx_main_v32 (idx_main_v33 (ix2 r (0 : Fin 1))) = ix1 (0 : Fin 1) :=
  funext fun a => Fin.ext (by match a with | ⟨0, _⟩ => rfl)

end Indices

/-! ## The stages at explicit coordinates -/

section Stages

variable (x0 x1 : (⟨S4096x1, .f32⟩ : BufTy).Contents (Elt Ideal)) (x2 x3 : (⟨S4096x41024, .f32⟩ : BufTy).Contents (Elt Ideal))
  (x4 : (⟨S256x41024, .f32⟩ : BufTy).Contents (Elt Ideal)) (x5 : (⟨S256, .f32⟩ : BufTy).Contents (Elt Ideal))
  (x6 : (⟨S32x512, .f32⟩ : BufTy).Contents (Elt Ideal)) (x7 : (⟨S32, .f32⟩ : BufTy).Contents (Elt Ideal))
  (x8 : (⟨S32x32, .f32⟩ : BufTy).Contents (Elt Ideal)) (x9 : (⟨S32, .f32⟩ : BufTy).Contents (Elt Ideal))
  (x10 : (⟨S1x32, .f32⟩ : BufTy).Contents (Elt Ideal)) (x11 : (⟨S1, .f32⟩ : BufTy).Contents (Elt Ideal))

/-- Entry `(r, j)` of the first feature transform: the plain sum over the 41024 features, the bias added. -/
theorem v4_apply (r : Fin 4096) (j : Fin 256) :
    val_main_v4 (F := Ideal) x2 x4 x5 (ix2 r j) = (∑ k : Fin 41024, x2 (ix2 r k) * x4 (ix2 j k)) + x5 (ix1 j) := by
  rw [val_main_v4_apply, val_main_v1_apply, val_main_v3_apply, val_main_v2_apply, Ideal.addf_def, bias_v3]
  refine congrArg (fun s => s + x5 (ix1 j)) (Finset.sum_congr rfl fun k _ => ?_)
  rw [val_main_v0_apply, lidx_v1, ridx_v1]

/-- Entry `(r, j)` of the second feature transform: the same with the other input. -/
theorem v9_apply (r : Fin 4096) (j : Fin 256) :
    val_main_v9 (F := Ideal) x3 x4 x5 (ix2 r j) = (∑ k : Fin 41024, x3 (ix2 r k) * x4 (ix2 j k)) + x5 (ix1 j) := by
  rw [val_main_v9_apply, val_main_v6_apply, val_main_v8_apply, val_main_v7_apply, Ideal.addf_def, bias_v8]
  refine congrArg (fun s => s + x5 (ix1 j)) (Finset.sum_congr rfl fun k _ => ?_)
  rw [val_main_v5_apply, lidx_v6, ridx_v6]

/-- Two 4096×256 arrays joined along their second axis, read at `(r, h)`: entry `h` of their two rows `r` laid side
    by side. Below 256 the entry comes from the first piece at the same coordinates; from 256 on from the second, at
    `h - 256`. -/
theorem concat_row (a b : (⟨S4096x256, .f32⟩ : BufTy).Contents (Elt Ideal))
    (hc : Shape.Concatenates [S4096x256, S4096x256] S4096x512 1) (r : Fin 4096) (h : Fin 512) :
    concatenate S4096x512 1 [⟨S4096x256, a⟩, ⟨S4096x256, b⟩] hc (ix2 r h)
      = Cert.Spec.cat (fun j => a (ix2 r j)) (fun j => b (ix2 r j)) h := by
  unfold Cert.Spec.cat
  by_cases hh : h.val < 256
  · rw [dif_pos hh]
    exact concatenate_pair_apply_left 1 a b hc (ix2 r h) rfl (ix2 r ⟨h.val, hh⟩)
      (fun c => match c with | ⟨0, _⟩ => rfl | ⟨1, _⟩ => rfl)
  · rw [dif_neg hh]
    exact concatenate_pair_apply_right 1 a b hc (ix2 r h) rfl rfl (ix2 r ⟨h.val - 256, by have := h.isLt; omega⟩)
      (fun c hne => match c, hne with | ⟨0, _⟩, _ => rfl | ⟨1, _⟩, hne => absurd rfl hne)
      (by show h.val - 256 + 256 = h.val; omega)

/-- Row `r` of the first joined array: the first feature-transform row, then the second. -/
theorem v10_apply (r : Fin 4096) (h : Fin 512) :
    val_main_v10 (F := Ideal) x2 x3 x4 x5 (ix2 r h)
      = Cert.Spec.cat (fun j => (∑ k : Fin 41024, x2 (ix2 r k) * x4 (ix2 j k)) + x5 (ix1 j))
          (fun j => (∑ k : Fin 41024, x3 (ix2 r k) * x4 (ix2 j k)) + x5 (ix1 j)) h := by
  unfold val_main_v10
  rw [concat_row]
  simp only [v4_apply, v9_apply]

/-- Row `r` of the second joined array: the two rows in the other order. -/
theorem v13_apply (r : Fin 4096) (h : Fin 512) :
    val_main_v13 (F := Ideal) x2 x3 x4 x5 (ix2 r h)
      = Cert.Spec.cat (fun j => (∑ k : Fin 41024, x3 (ix2 r k) * x4 (ix2 j k)) + x5 (ix1 j))
          (fun j => (∑ k : Fin 41024, x2 (ix2 r k) * x4 (ix2 j k)) + x5 (ix1 j)) h := by
  unfold val_main_v13
  rw [concat_row]
  simp only [v4_apply, v9_apply]

/-- Row `r` of the first layer's activations: the two joined rows mixed by the row's two scalars, clipped between the
    two printed bounds. -/
theorem v17_apply (r : Fin 4096) (h : Fin 512) :
    val_main_v17 (F := Ideal) x0 x1 x2 x3 x4 x5 (ix2 r h)
      = Cert.Spec.layer0 (x0 (ix2 r (0 : Fin 1))) (x1 (ix2 r (0 : Fin 1)))
          (fun j => (∑ k : Fin 41024, x2 (ix2 r k) * x4 (ix2 j k)) + x5 (ix1 j))
          (fun j => (∑ k : Fin 41024, x3 (ix2 r k) * x4 (ix2 j k)) + x5 (ix1 j)) h := by
  rw [val_main_v17_apply, val_main_call0_v4_apply, val_main_call0_v3_apply, val_main_cst_0_apply,
    val_main_call0_v2_apply, val_main_call0_v1_apply, val_main_call0_v0_apply, val_main_cst_apply,
    val_main_v16_apply, val_main_v12_apply, val_main_v15_apply, val_main_v11_apply, val_main_v14_apply,
    v10_apply, v13_apply, idx_v11, idx_v14]
  rfl

/-- Entry `(r, p)` of the first dense layer: row `r` of the activations against row `p` of the weights, the bias
    added, clipped. -/
theorem v23_apply (r : Fin 4096) (p : Fin 32) :
    val_main_v23 (F := Ideal) x0 x1 x2 x3 x4 x5 x6 x7 (ix2 r p)
      = Cert.Spec.dense (n := 512) (fun h => val_main_v17 (F := Ideal) x0 x1 x2 x3 x4 x5 (ix2 r h))
          (fun p h => x6 (ix2 p h)) (fun p => x7 (ix1 p)) p := by
  rw [val_main_v23_apply, val_main_call1_v4_apply, val_main_call1_v3_apply, val_main_cst_2_apply,
    val_main_call1_v2_apply, val_main_call1_v1_apply, val_main_call1_v0_apply, val_main_cst_1_apply,
    val_main_v22_apply, val_main_v19_apply, val_main_v21_apply, val_main_v20_apply, bias_v21]
  have hw : ∀ k : Fin 512, val_main_v18 (F := Ideal) x6 (ridx_main_v19 (ix2 r p) k) = x6 (ix2 p k) := fun k => by
    rw [val_main_v18_apply, ridx_v19]
  simp only [hw, lidx_v19]
  rfl

/-- Entry `(r, q)` of the second dense layer: row `r` of the first layer's result against row `q` of the weights, the
    bias added, clipped. -/
theorem v29_apply (r : Fin 4096) (q : Fin 32) :
    val_main_v29 (F := Ideal) x0 x1 x2 x3 x4 x5 x6 x7 x8 x9 (ix2 r q)
      = Cert.Spec.dense (n := 32) (fun p => val_main_v23 (F := Ideal) x0 x1 x2 x3 x4 x5 x6 x7 (ix2 r p))
          (fun q p => x8 (ix2 q p)) (fun q => x9 (ix1 q)) q := by
  rw [val_main_v29_apply, val_main_call2_v4_apply, val_main_call2_v3_apply, val_main_cst_4_apply,
    val_main_call2_v2_apply, val_main_call2_v1_apply, val_main_call2_v0_apply, val_main_cst_3_apply,
    val_main_v28_apply, val_main_v25_apply, val_main_v27_apply, val_main_v26_apply, bias_v27]
  have hw : ∀ k : Fin 32, val_main_v24 (F := Ideal) x8 (ridx_main_v25 (ix2 r q) k) = x8 (ix2 q k) := fun k => by
    rw [val_main_v24_apply, ridx_v25]
  simp only [hw, lidx_v25]
  rfl

/-- Row `r`'s output: row `r` of the second layer's result against the output weights, the output bias added. -/
theorem v34_apply (r : Fin 4096) :
    val_main_v34 (F := Ideal) x0 x1 x2 x3 x4 x5 x6 x7 x8 x9 x10 x11 (ix2 r (0 : Fin 1))
      = Cert.Spec.head (fun q => val_main_v29 (F := Ideal) x0 x1 x2 x3 x4 x5 x6 x7 x8 x9 (ix2 r q))
          (fun q => x10 (ix2 (0 : Fin 1) q)) (x11 (ix1 (0 : Fin 1))) := by
  rw [val_main_v34_apply, val_main_v31_apply, val_main_v33_apply, val_main_v32_apply, bias_v33]
  have hw : ∀ k : Fin 32, val_main_v30 (F := Ideal) x10 (ridx_main_v31 (ix2 r (0 : Fin 1)) k) = x10 (ix2 (0 : Fin 1) k) := fun k => by
    rw [val_main_v30_apply, ridx_v31]
  simp only [hw, lidx_v31]
  rfl

end Stages

/-- The reference's result at row `r` is the row function of that row's plain sums. -/
theorem result_apply (x0 x1 : (⟨S4096x1, .f32⟩ : BufTy).Contents (Elt Ideal)) (x2 x3 : (⟨S4096x41024, .f32⟩ : BufTy).Contents (Elt Ideal)) (x4 : (⟨S256x41024, .f32⟩ : BufTy).Contents (Elt Ideal))
    (x5 : (⟨S256, .f32⟩ : BufTy).Contents (Elt Ideal)) (x6 : (⟨S32x512, .f32⟩ : BufTy).Contents (Elt Ideal)) (x7 : (⟨S32, .f32⟩ : BufTy).Contents (Elt Ideal)) (x8 : (⟨S32x32, .f32⟩ : BufTy).Contents (Elt Ideal)) (x9 : (⟨S32, .f32⟩ : BufTy).Contents (Elt Ideal))
    (x10 : (⟨S1x32, .f32⟩ : BufTy).Contents (Elt Ideal)) (x11 : (⟨S1, .f32⟩ : BufTy).Contents (Elt Ideal)) (r : Fin 4096) (u : Fin 1) :
    val_main_v34 (F := Ideal) x0 x1 x2 x3 x4 x5 x6 x7 x8 x9 x10 x11 (ix2 r u)
      = Cert.Spec.rowOut (x0 (ix2 r (0 : Fin 1))) (x1 (ix2 r (0 : Fin 1)))
          (fun j => ∑ k : Fin 41024, x2 (ix2 r k) * x4 (ix2 j k))
          (fun j => ∑ k : Fin 41024, x3 (ix2 r k) * x4 (ix2 j k))
          (fun j => x5 (ix1 j))
          (fun p h => x6 (ix2 p h)) (fun p => x7 (ix1 p))
          (fun q p => x8 (ix2 q p)) (fun q => x9 (ix1 q))
          (fun q => x10 (ix2 (0 : Fin 1) q)) (x11 (ix1 (0 : Fin 1))) := by
  obtain rfl : u = (0 : Fin 1) := Subsingleton.elim _ _
  have e17 : (fun h => val_main_v17 (F := Ideal) x0 x1 x2 x3 x4 x5 (ix2 r h))
      = Cert.Spec.layer0 (x0 (ix2 r (0 : Fin 1))) (x1 (ix2 r (0 : Fin 1)))
          (fun j => (∑ k : Fin 41024, x2 (ix2 r k) * x4 (ix2 j k)) + x5 (ix1 j))
          (fun j => (∑ k : Fin 41024, x3 (ix2 r k) * x4 (ix2 j k)) + x5 (ix1 j)) :=
    funext fun h => v17_apply x0 x1 x2 x3 x4 x5 r h
  have e23 : (fun p => val_main_v23 (F := Ideal) x0 x1 x2 x3 x4 x5 x6 x7 (ix2 r p))
      = Cert.Spec.dense (n := 512) (fun h => val_main_v17 (F := Ideal) x0 x1 x2 x3 x4 x5 (ix2 r h))
          (fun p h => x6 (ix2 p h)) (fun p => x7 (ix1 p)) :=
    funext fun p => v23_apply x0 x1 x2 x3 x4 x5 x6 x7 r p
  have e29 : (fun q => val_main_v29 (F := Ideal) x0 x1 x2 x3 x4 x5 x6 x7 x8 x9 (ix2 r q))
      = Cert.Spec.dense (n := 32) (fun p => val_main_v23 (F := Ideal) x0 x1 x2 x3 x4 x5 x6 x7 (ix2 r p))
          (fun q p => x8 (ix2 q p)) (fun q => x9 (ix1 q)) :=
    funext fun q => v29_apply x0 x1 x2 x3 x4 x5 x6 x7 x8 x9 r q
  rw [v34_apply, e29, e23, e17]
  rfl

end Cert.RefRow

end
-- ==== Proof.KPieces.lean ====
/-
  What each control case of the body leaves in the two accumulators and in the output block, as pure terms of the
  blocks it loads. The body's stores cover each buffer, so the buffer ends at the last covering store's value, and every
  load reads a whole buffer at the contents it held.
    first K-step   : acc ← 0, then acc ← acc + x·w, so the accumulator ends at the update applied to the zero block;
    middle K-steps : acc ← acc + x·w over what the step before left;
    last K-step    : the same update, then the epilogue reads the UPDATED accumulators and stores the output block.
-/
import proofs.«156463_j14499809591732_1_alg».proof.Proof.Gen.KernelIdeal.Frame
import Idealize.ShloMosaic.Lib.Pipeline.Value
import Idealize.ShloMosaic.Lib.Tactic

set_option maxRecDepth 16384

noncomputable section

namespace Cert.KPieces

open Cert.KernelIdeal Cert.KernelIdeal.Gen Idealize.ShloMosaic Idealize.ShloMosaic.TcCoe Idealize.SL.Sem

variable {F : FTy → Type} [FloatOps F]
variable (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S512x32 .f32) (harg8 : arg8.IsWhole) (arg9 : Memref sig .tc .vmem S1x32 .f32) (harg9 : arg9.IsWhole) (arg10 : Memref sig .tc .vmem S32x32 .f32) (harg10 : arg10.IsWhole) (arg11 : Memref sig .tc .vmem S1x32 .f32) (harg11 : arg11.IsWhole) (arg12 : Memref sig .tc .vmem S32x1 .f32) (harg12 : arg12.IsWhole) (arg13 : Memref sig .tc .vmem S1x1 .f32) (harg13 : arg13.IsWhole) (arg14 : Memref sig .tc .vmem S1024x1 .f32) (harg14 : arg14.IsWhole) (arg15 : Memref sig .tc .vmem S1024x256 .f32) (harg15 : arg15.IsWhole) (arg16 : Memref sig .tc .vmem S1024x256 .f32) (harg16 : arg16.IsWhole)
variable (x0 : Vec F S1024x1024 .f32) (x1 : Vec F S1024x1024 .f32) (x2 : Vec F S1024x256 .f32) (x3 : Vec F S1x256 .f32) (x4 : Vec F S1024x1 .f32) (x5 : Vec F S1024x1 .f32) (x6 : Vec F S512x32 .f32) (x7 : Vec F S1x32 .f32) (x8 : Vec F S32x32 .f32) (x9 : Vec F S1x32 .f32) (x10 : Vec F S32x1 .f32) (x11 : Vec F S1x1 .f32)
variable (xs0 : Vec F S1024x256 .f32) (xs1 : Vec F S1024x256 .f32)

/-- A block read from offset zero on both axes. -/
theorem hz : (![0, 0] : Fin 2 → Nat) = fun _ => 0 := funext fun a => by fin_cases a <;> rfl

/-! ## The first K-step: reset, then update -/

/-- First K-step, first accumulator: the update applied to the zero block the reset stored. -/
theorem accW_first (hc0 : cond0_0 i) (hc1 : ¬cond0_1 i) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 = k0_pay4 x2 x0 k0_pay1 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11)]
  unfold kernelRun0_A
  dsimp only
  sl_unfold_words
  rw [View.canon_cons_unit_zero (S := S1024x256) hz, View.readCov_unit_zero (S := S1024x256) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x256) hz, View.ld_unit_zero (S := S1024x1024) hz]

/-- First K-step, second accumulator, likewise. -/
theorem accB_first (hc0 : cond0_0 i) (hc1 : ¬cond0_1 i) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 = k0_pay5 x2 x1 k0_pay2 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11)]
  unfold kernelRun0_A
  dsimp only
  sl_unfold_words
  rw [View.canon_cons_unit_zero (S := S1024x256) hz, View.readCov_unit_zero (S := S1024x256) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x256) hz, View.ld_unit_zero (S := S1024x1024) hz]

/-! ## A middle K-step: the update over what the step before left -/

theorem accW_mid (hc0 : ¬cond0_0 i) (hc1 : ¬cond0_1 i) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1 = k0_pay4 x2 x0 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x256) hz, View.ld_unit_zero (S := S1024x1024) hz]

theorem accB_mid (hc0 : ¬cond0_0 i) (hc1 : ¬cond0_1 i) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1 = k0_pay5 x2 x1 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x256) hz, View.ld_unit_zero (S := S1024x1024) hz]

/-! ## The last K-step: the update, then the epilogue over the updated accumulators -/

theorem accW_last (hc0 : ¬cond0_0 i) (hc1 : cond0_1 i) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1 = k0_pay4 x2 x0 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x256) hz, View.ld_unit_zero (S := S1024x1024) hz]

theorem accB_last (hc0 : ¬cond0_0 i) (hc1 : cond0_1 i) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1 = k0_pay5 x2 x1 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x256) hz, View.ld_unit_zero (S := S1024x1024) hz]

/-- The output block the last K-step stores: the epilogue of the two UPDATED accumulators. -/
theorem out_last (hc0 : ¬cond0_0 i) (hc1 : cond0_1 i) :
    out0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1
      = k0_pay6 (k0_pay7 x3 (k0_pay4 x2 x0 xs0) (k0_pay5 x2 x1 xs1) x4 x5 x6 x7 x8) x9 x10 x11 := by
  unfold out0_C_12
  rw [View.read_writes_eq_canon _ _ _ (cover0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.readCov_unit_zero (S := S1024x256) _ hz, View.ld_unit_zero (S := S1x256) hz, View.ld_unit_zero (S := S1024x256) hz, View.ld_unit_zero (S := S1024x1024) hz, View.ld_unit_zero (S := S1024x1) hz, View.ld_unit_zero (S := S512x32) hz, View.ld_unit_zero (S := S1x32) hz, View.ld_unit_zero (S := S32x32) hz, View.ld_unit_zero (S := S32x1) hz, View.ld_unit_zero (S := S1x1) hz]

end Cert.KPieces

end
-- ==== Proof.LibKeepdims.lean ====
/-
  A column of per-row values kept as a rank-2 array with a trailing unit axis, read at an index: what a row reduction
  with the reduced axis kept (a sum over the last axis that stays rank 2) needs on the way back to full width.

    [a] cast to [a, 1]          reads, at (i, u), the operand at i, whatever the unit coordinate u;
    [a, 1] broadcast to [a, b]  reads, at (p, c), the operand's row p at its one column.

  Both are the row-major position argument of the leading-unit-axis forms with the axes exchanged.
-/
import Idealize.ShloMosaic.Lib.ValueIdx
import Idealize.ShloMosaic.Lib.Pipeline.Value

namespace Idealize.ShloMosaic.Keepdims

open Idealize.ShloMosaic Idealize.ShloMosaic.ValueIdx

variable {α : Type}

/-- An `[a]` array cast to `[a, 1]` reads, at `(i, u)`, the operand at `i`: position `i · 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` array broadcast to `[a, b]` reads, at `(p, c)`, the operand's row `p` at its one column. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.Keepdims
-- ==== Proof.KTail.lean ====
/-
  The kernel body's arithmetic read at an index, on the extended reals.
    * the two resets write zero;
    * an accumulator update at `(r, j)` is the old entry plus `∑_q x[r,q]·w[q,j]` over the 1024 entries of the block's
      contraction axis (the narrowing to bf16 is the identity here, and the product into a zero accumulator is the sum);
    * the epilogue at row `r` is `Cert.Spec.rowOut` of row `r` of the two accumulators and the small operands.
-/
import proofs.«156463_j14499809591732_1_alg».proof.Proof.Gen.KernelIdeal.Skeleton
import proofs.«156463_j14499809591732_1_alg».proof.Proof.Spec
import proofs.«156463_j14499809591732_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KTail

open Cert.KernelIdeal Cert.KernelIdeal.Gen Idealize.ShloMosaic Idealize.ShloMosaic.ValueIdx

/-! ## The four products into a zero accumulator, read at an index

  Each product contracts the left operand's columns with the right operand's rows and has no batch axis, so at `(r, c)` the
  left operand is read at `(r, q)` and the right at `(q, c)`, `q` running over the contracted extent. -/

/-! ### The feature transform's block product, `[1024,1024] × [1024,256]` -/

theorem lhs_ft_0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem lhs_ft_1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
theorem rhs_ft_0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q
theorem rhs_ft_1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- The product into the zero accumulator at `(r, c)`: the sum over the 1024 contracted entries of row `r` of the left
    operand times column `c` of the right one. -/
theorem matmul_ft_apply {φ₁ φ₂ : FTy} (x : FVec Ideal S1024x1024 φ₁) (w : FVec Ideal S1024x256 φ₂) (r : Fin 1024) (c : Fin 256) :
    matmul (F := Ideal) dot_S1024x1024_S1024x256_S1024x256_1_0_0_1_n_n none x w (constant (F := Ideal) S1024x256 .f32 0x00000000#32) (ix2 r c)
      = ∑ q : Fin 1024, x (ix2 r q) * w (ix2 q c) := by
  simp only [matmul]
  rw [Ideal.matmul_constant_zero_apply, ← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 r c) ((contrEquiv1 dot_S1024x1024_S1024x256_S1024x256_1_0_0_1_n_n 1024 rfl rfl).symm k) = ix2 r k := funext fun a => Fin.ext (by
    match a with
    | ⟨0, _⟩ => exact lhs_ft_0 _ _
    | ⟨1, _⟩ => exact (lhs_ft_1 _ _).trans hk)
  have er : dot_S1024x1024_S1024x256_S1024x256_1_0_0_1_n_n.rhsIdx (ix2 r c) ((contrEquiv1 dot_S1024x1024_S1024x256_S1024x256_1_0_0_1_n_n 1024 rfl rfl).symm k) = ix2 k c := funext fun a => Fin.ext (by
    match a with
    | ⟨0, _⟩ => exact (rhs_ft_0 _ _).trans hk
    | ⟨1, _⟩ => exact rhs_ft_1 _ _)
  rw [el, er]

/-! ### The first dense layer's product, `[1024,512] × [512,32]` -/

theorem lhs_fc1_0 (i : S1024x32.Idx) (q : dot_S1024x512_S512x32_S1024x32_1_0_0_1_n_n.contr.Idx) :
    (dot_S1024x512_S512x32_S1024x32_1_0_0_1_n_n.lhsIdx i q 0).val = (i 0).val := by
  unfold DotDims.lhsIdx
  rw [dif_neg (show ¬(0 : Fin S1024x512.rank) ∈ dot_S1024x512_S512x32_S1024x32_1_0_0_1_n_n.lhsBatch by decide), dif_pos (show (0 : Fin S1024x512.rank) ∈ dot_S1024x512_S512x32_S1024x32_1_0_0_1_n_n.lhsNonContracting by decide)]
  rfl
theorem lhs_fc1_1 (i : S1024x32.Idx) (q : dot_S1024x512_S512x32_S1024x32_1_0_0_1_n_n.contr.Idx) :
    (dot_S1024x512_S512x32_S1024x32_1_0_0_1_n_n.lhsIdx i q 1).val = (q ⟨0, by decide⟩).val :=
  dot_S1024x512_S512x32_S1024x32_1_0_0_1_n_n.lhsIdx_val_of_single rfl i q
theorem rhs_fc1_0 (i : S1024x32.Idx) (q : dot_S1024x512_S512x32_S1024x32_1_0_0_1_n_n.contr.Idx) :
    (dot_S1024x512_S512x32_S1024x32_1_0_0_1_n_n.rhsIdx i q 0).val = (q ⟨0, by decide⟩).val :=
  dot_S1024x512_S512x32_S1024x32_1_0_0_1_n_n.rhsIdx_val_of_single rfl i q
theorem rhs_fc1_1 (i : S1024x32.Idx) (q : dot_S1024x512_S512x32_S1024x32_1_0_0_1_n_n.contr.Idx) :
    (dot_S1024x512_S512x32_S1024x32_1_0_0_1_n_n.rhsIdx i q 1).val = (i 1).val := by
  unfold DotDims.rhsIdx
  rw [dif_neg (show ¬(1 : Fin S512x32.rank) ∈ dot_S1024x512_S512x32_S1024x32_1_0_0_1_n_n.rhsBatch by decide), dif_pos (show (1 : Fin S512x32.rank) ∈ dot_S1024x512_S512x32_S1024x32_1_0_0_1_n_n.rhsNonContracting by decide)]
  rfl

/-- The product into the zero accumulator at `(r, c)`: the sum over the 512 contracted entries of row `r` of the left
    operand times column `c` of the right one. -/
theorem matmul_fc1_apply {φ₁ φ₂ : FTy} (x : FVec Ideal S1024x512 φ₁) (w : FVec Ideal S512x32 φ₂) (r : Fin 1024) (c : Fin 32) :
    matmul (F := Ideal) dot_S1024x512_S512x32_S1024x32_1_0_0_1_n_n none x w (constant (F := Ideal) S1024x32 .f32 0x00000000#32) (ix2 r c)
      = ∑ q : Fin 512, x (ix2 r q) * w (ix2 q c) := by
  simp only [matmul]
  rw [Ideal.matmul_constant_zero_apply, ← Equiv.sum_comp (contrEquiv1 dot_S1024x512_S512x32_S1024x32_1_0_0_1_n_n 512 rfl rfl).symm]
  refine Finset.sum_congr rfl fun k _ => ?_
  have hk := contrEquiv1_symm_val dot_S1024x512_S512x32_S1024x32_1_0_0_1_n_n 512 rfl rfl k
  have el : dot_S1024x512_S512x32_S1024x32_1_0_0_1_n_n.lhsIdx (ix2 r c) ((contrEquiv1 dot_S1024x512_S512x32_S1024x32_1_0_0_1_n_n 512 rfl rfl).symm k) = ix2 r k := funext fun a => Fin.ext (by
    match a with
    | ⟨0, _⟩ => exact lhs_fc1_0 _ _
    | ⟨1, _⟩ => exact (lhs_fc1_1 _ _).trans hk)
  have er : dot_S1024x512_S512x32_S1024x32_1_0_0_1_n_n.rhsIdx (ix2 r c) ((contrEquiv1 dot_S1024x512_S512x32_S1024x32_1_0_0_1_n_n 512 rfl rfl).symm k) = ix2 k c := funext fun a => Fin.ext (by
    match a with
    | ⟨0, _⟩ => exact (rhs_fc1_0 _ _).trans hk
    | ⟨1, _⟩ => exact rhs_fc1_1 _ _)
  rw [el, er]

/-! ### The second dense layer's product, `[1024,32] × [32,32]` -/

theorem lhs_fc2_0 (i : S1024x32.Idx) (q : dot_S1024x32_S32x32_S1024x32_1_0_0_1_n_n.contr.Idx) :
    (dot_S1024x32_S32x32_S1024x32_1_0_0_1_n_n.lhsIdx i q 0).val = (i 0).val := by
  unfold DotDims.lhsIdx
  rw [dif_neg (show ¬(0 : Fin S1024x32.rank) ∈ dot_S1024x32_S32x32_S1024x32_1_0_0_1_n_n.lhsBatch by decide), dif_pos (show (0 : Fin S1024x32.rank) ∈ dot_S1024x32_S32x32_S1024x32_1_0_0_1_n_n.lhsNonContracting by decide)]
  rfl
theorem lhs_fc2_1 (i : S1024x32.Idx) (q : dot_S1024x32_S32x32_S1024x32_1_0_0_1_n_n.contr.Idx) :
    (dot_S1024x32_S32x32_S1024x32_1_0_0_1_n_n.lhsIdx i q 1).val = (q ⟨0, by decide⟩).val :=
  dot_S1024x32_S32x32_S1024x32_1_0_0_1_n_n.lhsIdx_val_of_single rfl i q
theorem rhs_fc2_0 (i : S1024x32.Idx) (q : dot_S1024x32_S32x32_S1024x32_1_0_0_1_n_n.contr.Idx) :
    (dot_S1024x32_S32x32_S1024x32_1_0_0_1_n_n.rhsIdx i q 0).val = (q ⟨0, by decide⟩).val :=
  dot_S1024x32_S32x32_S1024x32_1_0_0_1_n_n.rhsIdx_val_of_single rfl i q
theorem rhs_fc2_1 (i : S1024x32.Idx) (q : dot_S1024x32_S32x32_S1024x32_1_0_0_1_n_n.contr.Idx) :
    (dot_S1024x32_S32x32_S1024x32_1_0_0_1_n_n.rhsIdx i q 1).val = (i 1).val := by
  unfold DotDims.rhsIdx
  rw [dif_neg (show ¬(1 : Fin S32x32.rank) ∈ dot_S1024x32_S32x32_S1024x32_1_0_0_1_n_n.rhsBatch by decide), dif_pos (show (1 : Fin S32x32.rank) ∈ dot_S1024x32_S32x32_S1024x32_1_0_0_1_n_n.rhsNonContracting by decide)]
  rfl

/-- The product into the zero accumulator at `(r, c)`: the sum over the 32 contracted entries of row `r` of the left
    operand times column `c` of the right one. -/
theorem matmul_fc2_apply {φ₁ φ₂ : FTy} (x : FVec Ideal S1024x32 φ₁) (w : FVec Ideal S32x32 φ₂) (r : Fin 1024) (c : Fin 32) :
    matmul (F := Ideal) dot_S1024x32_S32x32_S1024x32_1_0_0_1_n_n none x w (constant (F := Ideal) S1024x32 .f32 0x00000000#32) (ix2 r c)
      = ∑ q : Fin 32, x (ix2 r q) * w (ix2 q c) := by
  simp only [matmul]
  rw [Ideal.matmul_constant_zero_apply, ← Equiv.sum_comp (contrEquiv1 dot_S1024x32_S32x32_S1024x32_1_0_0_1_n_n 32 rfl rfl).symm]
  refine Finset.sum_congr rfl fun k _ => ?_
  have hk := contrEquiv1_symm_val dot_S1024x32_S32x32_S1024x32_1_0_0_1_n_n 32 rfl rfl k
  have el : dot_S1024x32_S32x32_S1024x32_1_0_0_1_n_n.lhsIdx (ix2 r c) ((contrEquiv1 dot_S1024x32_S32x32_S1024x32_1_0_0_1_n_n 32 rfl rfl).symm k) = ix2 r k := funext fun a => Fin.ext (by
    match a with
    | ⟨0, _⟩ => exact lhs_fc2_0 _ _
    | ⟨1, _⟩ => exact (lhs_fc2_1 _ _).trans hk)
  have er : dot_S1024x32_S32x32_S1024x32_1_0_0_1_n_n.rhsIdx (ix2 r c) ((contrEquiv1 dot_S1024x32_S32x32_S1024x32_1_0_0_1_n_n 32 rfl rfl).symm k) = ix2 k c := funext fun a => Fin.ext (by
    match a with
    | ⟨0, _⟩ => exact (rhs_fc2_0 _ _).trans hk
    | ⟨1, _⟩ => exact rhs_fc2_1 _ _)
  rw [el, er]

/-! ### The output neuron's product, `[1024,32] × [32,1]` -/

theorem lhs_head_0 (i : S1024x1.Idx) (q : dot_S1024x32_S32x1_S1024x1_1_0_0_1_n_n.contr.Idx) :
    (dot_S1024x32_S32x1_S1024x1_1_0_0_1_n_n.lhsIdx i q 0).val = (i 0).val := by
  unfold DotDims.lhsIdx
  rw [dif_neg (show ¬(0 : Fin S1024x32.rank) ∈ dot_S1024x32_S32x1_S1024x1_1_0_0_1_n_n.lhsBatch by decide), dif_pos (show (0 : Fin S1024x32.rank) ∈ dot_S1024x32_S32x1_S1024x1_1_0_0_1_n_n.lhsNonContracting by decide)]
  rfl
theorem lhs_head_1 (i : S1024x1.Idx) (q : dot_S1024x32_S32x1_S1024x1_1_0_0_1_n_n.contr.Idx) :
    (dot_S1024x32_S32x1_S1024x1_1_0_0_1_n_n.lhsIdx i q 1).val = (q ⟨0, by decide⟩).val :=
  dot_S1024x32_S32x1_S1024x1_1_0_0_1_n_n.lhsIdx_val_of_single rfl i q
theorem rhs_head_0 (i : S1024x1.Idx) (q : dot_S1024x32_S32x1_S1024x1_1_0_0_1_n_n.contr.Idx) :
    (dot_S1024x32_S32x1_S1024x1_1_0_0_1_n_n.rhsIdx i q 0).val = (q ⟨0, by decide⟩).val :=
  dot_S1024x32_S32x1_S1024x1_1_0_0_1_n_n.rhsIdx_val_of_single rfl i q
theorem rhs_head_1 (i : S1024x1.Idx) (q : dot_S1024x32_S32x1_S1024x1_1_0_0_1_n_n.contr.Idx) :
    (dot_S1024x32_S32x1_S1024x1_1_0_0_1_n_n.rhsIdx i q 1).val = (i 1).val := by
  unfold DotDims.rhsIdx
  rw [dif_neg (show ¬(1 : Fin S32x1.rank) ∈ dot_S1024x32_S32x1_S1024x1_1_0_0_1_n_n.rhsBatch by decide), dif_pos (show (1 : Fin S32x1.rank) ∈ dot_S1024x32_S32x1_S1024x1_1_0_0_1_n_n.rhsNonContracting by decide)]
  rfl

/-- The product into the zero accumulator at `(r, c)`: the sum over the 32 contracted entries of row `r` of the left
    operand times column `c` of the right one. -/
theorem matmul_head_apply {φ₁ φ₂ : FTy} (x : FVec Ideal S1024x32 φ₁) (w : FVec Ideal S32x1 φ₂) (r : Fin 1024) (c : Fin 1) :
    matmul (F := Ideal) dot_S1024x32_S32x1_S1024x1_1_0_0_1_n_n none x w (constant (F := Ideal) S1024x1 .f32 0x00000000#32) (ix2 r c)
      = ∑ q : Fin 32, x (ix2 r q) * w (ix2 q c) := by
  simp only [matmul]
  rw [Ideal.matmul_constant_zero_apply, ← Equiv.sum_comp (contrEquiv1 dot_S1024x32_S32x1_S1024x1_1_0_0_1_n_n 32 rfl rfl).symm]
  refine Finset.sum_congr rfl fun k _ => ?_
  have hk := contrEquiv1_symm_val dot_S1024x32_S32x1_S1024x1_1_0_0_1_n_n 32 rfl rfl k
  have el : dot_S1024x32_S32x1_S1024x1_1_0_0_1_n_n.lhsIdx (ix2 r c) ((contrEquiv1 dot_S1024x32_S32x1_S1024x1_1_0_0_1_n_n 32 rfl rfl).symm k) = ix2 r k := funext fun a => Fin.ext (by
    match a with
    | ⟨0, _⟩ => exact lhs_head_0 _ _
    | ⟨1, _⟩ => exact (lhs_head_1 _ _).trans hk)
  have er : dot_S1024x32_S32x1_S1024x1_1_0_0_1_n_n.rhsIdx (ix2 r c) ((contrEquiv1 dot_S1024x32_S32x1_S1024x1_1_0_0_1_n_n 32 rfl rfl).symm k) = ix2 k c := funext fun a => Fin.ext (by
    match a with
    | ⟨0, _⟩ => exact (rhs_head_0 _ _).trans hk
    | ⟨1, _⟩ => exact rhs_head_1 _ _)
  rw [el, er]

/-! ## The resets and the accumulator updates -/

/-- The first accumulator's reset value is zero everywhere. -/
theorem pay1_apply (i : S1024x256.Idx) : k0_pay1 (F := Ideal) i = 0 := by
  unfold k0_pay1
  rw [shapeCast_self]
  exact Ideal.ofBits_zero_f32

/-- The second accumulator's reset value is zero everywhere. -/
theorem pay2_apply (i : S1024x256.Idx) : k0_pay2 (F := Ideal) i = 0 := by
  unfold k0_pay2
  rw [shapeCast_self]
  exact Ideal.ofBits_zero_f32

/-- The first accumulator's update: the old entry plus the block product's entry. -/
theorem pay4_apply (v3 : Vec Ideal S1024x256 .f32) (v6 : Vec Ideal S1024x1024 .f32) (v12 : Vec Ideal S1024x256 .f32)
    (r : Fin 1024) (j : Fin 256) :
    k0_pay4 (F := Ideal) v3 v6 v12 (ix2 r j) = v12 (ix2 r j) + ∑ q : Fin 1024, v6 (ix2 r q) * v3 (ix2 q j) := by
  unfold k0_pay4 k0_pay3
  rw [shapeCast_self, addf_apply, matmul_ft_apply, shapeCast_self, shapeCast_self]
  rfl

/-- The second accumulator's update, likewise. -/
theorem pay5_apply (v3 : Vec Ideal S1024x256 .f32) (v9 : Vec Ideal S1024x1024 .f32) (v18 : Vec Ideal S1024x256 .f32)
    (r : Fin 1024) (j : Fin 256) :
    k0_pay5 (F := Ideal) v3 v9 v18 (ix2 r j) = v18 (ix2 r j) + ∑ q : Fin 1024, v9 (ix2 r q) * v3 (ix2 q j) := by
  unfold k0_pay5 k0_pay3
  rw [shapeCast_self, addf_apply, matmul_ft_apply, shapeCast_self, shapeCast_self]
  rfl

/-! ## The epilogue's pieces, each over variables -/

/-- The body's clip, `min hi (max lo x)` entry by entry, is the specification's. -/
theorem clip_apply {s : Shape} (x : FVec Ideal s .f32) (i : s.Idx) :
    minimumf (F := Ideal) (broadcast s (Scalar.ofBits (F := Ideal) .f32 0x3F800000#32)) (maximumf (F := Ideal) (broadcast s (Scalar.ofBits (F := Ideal) .f32 0x00000000#32)) x) i = Cert.Spec.clip (x i) := rfl

/-- Adding a one-row array spread over all rows: entry `(r, j)` gains the row's entry `j`. -/
theorem add_row_apply {a b : ℕ} (x : FVec Ideal ⟨2, ![a, b]⟩ .f32) (v : Vec Ideal ⟨2, ![1, b]⟩ .f32)
    (h₁ : (⟨2, ![1, b]⟩ : Shape).ShapeCasts ⟨2, ![1, b]⟩) (h₂ : (⟨2, ![1, b]⟩ : Shape).Broadcasts ⟨2, ![a, b]⟩)
    (r : Fin a) (j : Fin b) :
    addf (F := Ideal) x (broadcastTo ⟨2, ![a, b]⟩ (shapeCast ⟨2, ![1, b]⟩ v h₁) h₂) (ix2 r j)
      = x (ix2 r j) + v (ix2 (0 : Fin 1) j) := by
  rw [addf_apply, shapeCast_self, broadcastTo_1b_ab_apply]

/-- Two 256-wide arrays joined along the columns, read in row `r`: the two rows laid side by side. -/
theorem concat_apply (x y : FVec Ideal S1024x256 .f32) (r : Fin 1024) (h : Fin 512) :
    concatenate S1024x512 1 [⟨S1024x256, x⟩, ⟨S1024x256, y⟩] concatenates_S1024x256_S1024x256_S1024x512_d1 (ix2 r h)
      = Cert.Spec.cat (fun j => x (ix2 r j)) (fun j => y (ix2 r j)) h := by
  unfold Cert.Spec.cat
  split
  · next hh =>
    exact concatenate_pair_apply_left 1 x y _ (ix2 r h) rfl (ix2 r ⟨h.val, hh⟩) (fun b => by
      match b with
      | ⟨0, _⟩ => rfl
      | ⟨1, _⟩ => rfl)
  · next hh =>
    exact concatenate_pair_apply_right 1 x y _ (ix2 r h) rfl rfl (ix2 r ⟨h.val - 256, by have := h.isLt; omega⟩)
      (fun b hb => by
        match b, hb with
        | ⟨0, _⟩, _ => rfl
        | ⟨1, _⟩, hb => exact absurd rfl hb)
      (by show h.val - 256 + 256 = h.val; omega)

/-- The first layer at `(r, h)`, over the two biased feature arrays `w`, `b` and the two per-row scalars. -/
theorem layer0_apply (w b : FVec Ideal S1024x256 .f32) (v37 v40 : Vec Ideal S1024x1 .f32) (r : Fin 1024) (h : Fin 512) :
    minimumf (F := Ideal) (broadcast S1024x512 (Scalar.ofBits (F := Ideal) .f32 0x3F800000#32)) (maximumf (F := Ideal) (broadcast S1024x512 (Scalar.ofBits (F := Ideal) .f32 0x00000000#32)) (addf (F := Ideal)
        (mulf (F := Ideal) (broadcastTo S1024x512 v37 broadcasts_S1024x1_S1024x512)
          (concatenate S1024x512 1 [⟨S1024x256, w⟩, ⟨S1024x256, b⟩] concatenates_S1024x256_S1024x256_S1024x512_d1))
        (mulf (F := Ideal) (broadcastTo S1024x512 v40 broadcasts_S1024x1_S1024x512)
          (concatenate S1024x512 1 [⟨S1024x256, b⟩, ⟨S1024x256, w⟩] concatenates_S1024x256_S1024x256_S1024x512_d1)))) (ix2 r h)
      = Cert.Spec.layer0 (v37 (ix2 r (0 : Fin 1))) (v40 (ix2 r (0 : Fin 1))) (fun j => w (ix2 r j)) (fun j => b (ix2 r j)) h := by
  rw [clip_apply, addf_apply, mulf_apply, mulf_apply, Keepdims.broadcastTo_a1_ab_apply, Keepdims.broadcastTo_a1_ab_apply,
    concat_apply, concat_apply]
  rfl

/-- The first dense layer at `(r, p)`, over its input array `x`. -/
theorem dense512_apply (x : FVec Ideal S1024x512 .f32) (v48 : Vec Ideal S512x32 .f32) (v51 : Vec Ideal S1x32 .f32)
    (r : Fin 1024) (p : Fin 32) :
    minimumf (F := Ideal) (broadcast S1024x32 (Scalar.ofBits (F := Ideal) .f32 0x3F800000#32)) (maximumf (F := Ideal) (broadcast S1024x32 (Scalar.ofBits (F := Ideal) .f32 0x00000000#32)) (addf (F := Ideal)
        (matmul (F := Ideal) (φ₂ := .f32) dot_S1024x512_S512x32_S1024x32_1_0_0_1_n_n none x (shapeCast S512x32 v48 shapeCasts_S512x32_S512x32)
          (constant (F := Ideal) S1024x32 .f32 0x00000000#32))
        (broadcastTo S1024x32 (shapeCast S1x32 v51 shapeCasts_S1x32_S1x32) broadcasts_S1x32_S1024x32))) (ix2 r p)
      = Cert.Spec.dense (fun h => x (ix2 r h)) (fun p h => v48 (ix2 h p)) (fun p => v51 (ix2 (0 : Fin 1) p)) p := by
  rw [clip_apply, add_row_apply, matmul_fc1_apply, shapeCast_self]
  rfl

/-- The second dense layer at `(r, q)`, over its input array `x`. -/
theorem dense32_apply (x : FVec Ideal S1024x32 .f32) (v59 : Vec Ideal S32x32 .f32) (v62 : Vec Ideal S1x32 .f32)
    (r : Fin 1024) (q : Fin 32) :
    minimumf (F := Ideal) (broadcast S1024x32 (Scalar.ofBits (F := Ideal) .f32 0x3F800000#32)) (maximumf (F := Ideal) (broadcast S1024x32 (Scalar.ofBits (F := Ideal) .f32 0x00000000#32)) (addf (F := Ideal)
        (matmul (F := Ideal) (φ₂ := .f32) dot_S1024x32_S32x32_S1024x32_1_0_0_1_n_n none x (shapeCast S32x32 v59 shapeCasts_S32x32_S32x32)
          (constant (F := Ideal) S1024x32 .f32 0x00000000#32))
        (broadcastTo S1024x32 (shapeCast S1x32 v62 shapeCasts_S1x32_S1x32) broadcasts_S1x32_S1024x32))) (ix2 r q)
      = Cert.Spec.dense (fun p => x (ix2 r p)) (fun q p => v59 (ix2 p q)) (fun q => v62 (ix2 (0 : Fin 1) q)) q := by
  rw [clip_apply, add_row_apply, matmul_fc2_apply, shapeCast_self]
  rfl

/-- The output neuron at `(r, u)`, over its input array `x`; the one column is column `0`. -/
theorem head_apply (x : FVec Ideal S1024x32 .f32) (v70 : Vec Ideal S32x1 .f32) (v73 : Vec Ideal S1x1 .f32)
    (r : Fin 1024) (u : Fin 1) :
    addf (F := Ideal)
        (matmul (F := Ideal) (φ₂ := .f32) dot_S1024x32_S32x1_S1024x1_1_0_0_1_n_n none x (shapeCast S32x1 v70 shapeCasts_S32x1_S32x1)
          (constant (F := Ideal) S1024x1 .f32 0x00000000#32))
        (broadcastTo S1024x1 (shapeCast S1x1 v73 shapeCasts_S1x1_S1x1) broadcasts_S1x1_S1024x1) (ix2 r u)
      = Cert.Spec.head (fun q => x (ix2 r q)) (fun q => v70 (ix2 q (0 : Fin 1))) (v73 (ix2 (0 : Fin 1) (0 : Fin 1))) := by
  obtain rfl : u = 0 := Subsingleton.elim _ _
  rw [add_row_apply, matmul_head_apply, shapeCast_self]
  rfl

/-! ## The epilogue -/

/-- The epilogue at row `r`: the row function of row `r` of the two accumulators (`v29`, `v32`), the bias row `v27`,
    the two per-row scalars (`v37`, `v40`), and the transposed weights and bias rows as the body loads them. -/
theorem tail_apply (v27 : Vec Ideal S1x256 .f32) (v29 v32 : Vec Ideal S1024x256 .f32) (v37 v40 : Vec Ideal S1024x1 .f32)
    (v48 : Vec Ideal S512x32 .f32) (v51 : Vec Ideal S1x32 .f32) (v59 : Vec Ideal S32x32 .f32) (v62 : Vec Ideal S1x32 .f32)
    (v70 : Vec Ideal S32x1 .f32) (v73 : Vec Ideal S1x1 .f32) (r : Fin 1024) (u : Fin 1) :
    k0_pay6 (F := Ideal) (k0_pay7 v27 v29 v32 v37 v40 v48 v51 v59) v62 v70 v73 (ix2 r u)
      = Cert.Spec.rowOut (v37 (ix2 r (0 : Fin 1))) (v40 (ix2 r (0 : Fin 1)))
          (fun j => v29 (ix2 r j)) (fun j => v32 (ix2 r j)) (fun j => v27 (ix2 (0 : Fin 1) j))
          (fun p h => v48 (ix2 h p)) (fun p => v51 (ix2 (0 : Fin 1) p))
          (fun q p => v59 (ix2 p q)) (fun q => v62 (ix2 (0 : Fin 1) q))
          (fun q => v70 (ix2 q (0 : Fin 1))) (v73 (ix2 (0 : Fin 1) (0 : Fin 1))) := by
  unfold k0_pay6 k0_pay7 Cert.Spec.rowOut
  refine (head_apply _ v70 v73 r u).trans ?_
  refine congrArg (fun x => Cert.Spec.head x _ _) (funext fun q => ?_)
  refine (dense32_apply _ v59 v62 r q).trans ?_
  refine congrArg (fun x => Cert.Spec.dense x _ _ q) (funext fun p => ?_)
  refine (dense512_apply _ v48 v51 r p).trans ?_
  refine congrArg (fun x => Cert.Spec.dense x _ _ p) (funext fun h => ?_)
  refine (layer0_apply _ _ v37 v40 r h).trans ?_
  exact congrArg₂ (fun w b => Cert.Spec.layer0 _ _ w b h)
    (funext fun j => add_row_apply v29 v27 _ _ r j) (funext fun j => add_row_apply v32 v27 _ _ r j)

end Cert.KTail

end
-- ==== Proof.KHost.lean ====
/-
  What the region finds in the arrays the host operations before it wrote, read at an index on the extended reals:
  the two batch operands padded with zeros from 41024 to 41984 along the contraction axis, the feature weights
  transposed and padded the same way, and the small operands transposed or given a unit axis.
-/
import proofs.«156463_j14499809591732_1_alg».proof.Proof.Gen.KernelIdeal.Frame.Runs
import Idealize.ShloMosaic.Lib.ValueIdx
import Idealize.ShloMosaic.Lib.ValueLayout
import Idealize.ShloMosaic.Lib.KernelVsHost
import Idealize.ShloMosaic.Lib.Pipeline.Value
import Idealize.ShloMosaic.Lib.StableHlo.Run
import Idealize.ShloMosaic.PureOps.Ideal.Laws

noncomputable section

namespace Cert.KHost

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (c : Dev nD)

/-! ## The padding value -/

/-- The padding value is the integer word zero converted to a float: a rank-zero array whose one entry is zero. -/
theorem padValue_apply (i : S_.Idx) : (sitofp (F := Ideal) .f32 (constantI S_ 32 0#32) : S_.Idx → EReal) i = 0 := by
  rw [sitofp_apply, constantI_apply]
  exact sitofp_zero

/-! ## Each array as the host operations' term of the launched arguments -/

/-- `main_v0` is `w_in` padded by 960 columns of the padding value. -/
theorem V_v0_eq :
    (V m c main_v0 : S4096x41984.Idx → EReal)
      = pad S4096x41984 ![0, 0] ![0, 960] ![0, 0] (m ((c : Thread nD τ).loc main_arg2) : S4096x41024.Idx → EReal)
          (sitofp (F := Ideal) .f32 (constantI S_ 32 0#32) : S_.Idx → EReal) Gen.pads_S4096x41024_S4096x41984_000_09600 Gen.h_S_ := by
  dsimp only [V]
  simp only [hostOps0, hostOps0_1, hostOps0_2, hostOps0_3, hostOps0_4, hostOps0_5, hostOps0_6, List.flatten_cons, List.flatten_nil,
    List.append_nil, List.cons_append, List.nil_append]
  after_results
  rfl

/-- `main_v1` is `b_in` padded by 960 columns of the padding value. -/
theorem V_v1_eq :
    (V m c main_v1 : S4096x41984.Idx → EReal)
      = pad S4096x41984 ![0, 0] ![0, 960] ![0, 0] (m ((c : Thread nD τ).loc main_arg3) : S4096x41024.Idx → EReal)
          (sitofp (F := Ideal) .f32 (constantI S_ 32 0#32) : S_.Idx → EReal) Gen.pads_S4096x41024_S4096x41984_000_09600 Gen.h_S_ := by
  dsimp only [V]
  simp only [hostOps0, hostOps0_1, hostOps0_2, hostOps0_3, hostOps0_4, hostOps0_5, hostOps0_6, List.flatten_cons, List.flatten_nil,
    List.append_nil, List.cons_append, List.nil_append]
  after_results
  rfl

/-- `main_v3` is `W_in` transposed, then padded by 960 rows of the padding value. -/
theorem V_v3_eq :
    (V m c main_v3 : S41984x256.Idx → EReal)
      = pad S41984x256 ![0, 0] ![960, 0] ![0, 0]
          (transpose S41024x256 [1, 0] (m ((c : Thread nD τ).loc main_arg4) : S256x41024.Idx → EReal)
            Gen.transposes_S256x41024_S41024x256_1_0)
          (sitofp (F := Ideal) .f32 (constantI S_ 32 0#32) : S_.Idx → EReal) Gen.pads_S41024x256_S41984x256_09600_000 Gen.h_S_ := by
  dsimp only [V]
  simp only [hostOps0, hostOps0_1, hostOps0_2, hostOps0_3, hostOps0_4, hostOps0_5, hostOps0_6, List.flatten_cons, List.flatten_nil,
    List.append_nil, List.cons_append, List.nil_append]
  after_results
  rfl

/-- `main_v4` is the feature bias with a leading unit axis. -/
theorem V_v4_eq :
    (V m c main_v4 : S1x256.Idx → EReal)
      = shapeCast S1x256 (m ((c : Thread nD τ).loc main_arg5) : S256.Idx → EReal) Gen.shapeCasts_S256_S1x256 := by
  dsimp only [V]
  simp only [hostOps0, hostOps0_1, hostOps0_2, hostOps0_3, hostOps0_4, hostOps0_5, hostOps0_6, List.flatten_cons, List.flatten_nil,
    List.append_nil, List.cons_append, List.nil_append]
  after_results
  rfl

/-- `main_v5` is `W1` transposed. -/
theorem V_v5_eq :
    (V m c main_v5 : S512x32.Idx → EReal)
      = transpose S512x32 [1, 0] (m ((c : Thread nD τ).loc main_arg6) : S32x512.Idx → EReal) Gen.transposes_S32x512_S512x32_1_0 := by
  dsimp only [V]
  simp only [hostOps0, hostOps0_1, hostOps0_2, hostOps0_3, hostOps0_4, hostOps0_5, hostOps0_6, List.flatten_cons, List.flatten_nil,
    List.append_nil, List.cons_append, List.nil_append]
  after_results

/-- `main_v6` is `W2` transposed. -/
theorem V_v6_eq :
    (V m c main_v6 : S32x32.Idx → EReal)
      = transpose S32x32 [1, 0] (m ((c : Thread nD τ).loc main_arg8) : S32x32.Idx → EReal) Gen.transposes_S32x32_S32x32_1_0 := by
  dsimp only [V]
  simp only [hostOps0, hostOps0_1, hostOps0_2, hostOps0_3, hostOps0_4, hostOps0_5, hostOps0_6, List.flatten_cons, List.flatten_nil,
    List.append_nil, List.cons_append, List.nil_append]
  after_results

/-- `main_v7` is `Wo` transposed. -/
theorem V_v7_eq :
    (V m c main_v7 : S32x1.Idx → EReal)
      = transpose S32x1 [1, 0] (m ((c : Thread nD τ).loc main_arg10) : S1x32.Idx → EReal) Gen.transposes_S1x32_S32x1_1_0 := by
  dsimp only [V]
  simp only [hostOps0, hostOps0_1, hostOps0_2, hostOps0_3, hostOps0_4, hostOps0_5, hostOps0_6, List.flatten_cons, List.flatten_nil,
    List.append_nil, List.cons_append, List.nil_append]
  after_results

/-- `main_v8` is `b1` with a leading unit axis. -/
theorem V_v8_eq :
    (V m c main_v8 : S1x32.Idx → EReal)
      = shapeCast S1x32 (m ((c : Thread nD τ).loc main_arg7) : S32.Idx → EReal) Gen.shapeCasts_S32_S1x32 := by
  dsimp only [V]
  simp only [hostOps0, hostOps0_1, hostOps0_2, hostOps0_3, hostOps0_4, hostOps0_5, hostOps0_6, List.flatten_cons, List.flatten_nil,
    List.append_nil, List.cons_append, List.nil_append]
  after_results
  rfl

/-- `main_v9` is `b2` with a leading unit axis. -/
theorem V_v9_eq :
    (V m c main_v9 : S1x32.Idx → EReal)
      = shapeCast S1x32 (m ((c : Thread nD τ).loc main_arg9) : S32.Idx → EReal) Gen.shapeCasts_S32_S1x32 := by
  dsimp only [V]
  simp only [hostOps0, hostOps0_1, hostOps0_2, hostOps0_3, hostOps0_4, hostOps0_5, hostOps0_6, List.flatten_cons, List.flatten_nil,
    List.append_nil, List.cons_append, List.nil_append]
  after_results
  rfl

/-- `main_v10` is `bo` with a leading unit axis. -/
theorem V_v10_eq :
    (V m c main_v10 : S1x1.Idx → EReal)
      = shapeCast S1x1 (m ((c : Thread nD τ).loc main_arg11) : S1.Idx → EReal) Gen.shapeCasts_S1_S1x1 := by
  dsimp only [V]
  simp only [hostOps0, hostOps0_1, hostOps0_2, hostOps0_3, hostOps0_4, hostOps0_5, hostOps0_6, List.flatten_cons, List.flatten_nil,
    List.append_nil, List.cons_append, List.nil_append]
  after_results
  rfl

/-! ## A pad with no low and no interior padding, read at an index

With no low padding and no interior padding the padded array's entry `(r, k)` is the operand's entry `(r, k)` while
`k` is inside the operand, and the padding value once `k` is past the operand's extent on the padded axis. -/

/-- High padding on the second axis of a matrix: inside the operand. -/
theorem pad_hi1_inside {a b b' : ℕ} (p : ℕ) (x : (⟨2, ![a, b]⟩ : Shape).Idx → EReal) (v : S_.Idx → EReal)
    (hp : (⟨2, ![a, b]⟩ : Shape).Pads (![0, 0] : Fin 2 → Nat) ![0, p] ![0, 0] ⟨2, ![a, b']⟩) (hu : 0 < S_.numel)
    (r : Fin a) (k : Fin b') (h : k.val < b) :
    pad ⟨2, ![a, b']⟩ ![0, 0] ![0, p] ![0, 0] x v hp hu (ix2 r k) = x (ix2 r ⟨k.val, h⟩) :=
  pad_apply_of_inside _ _ _ x v hp hu (ix2 r k) (ix2 r ⟨k.val, h⟩) fun ax => match ax with
    | ⟨0, _⟩ => by show r.val = 0 + r.val * (0 + 1); omega
    | ⟨1, _⟩ => by show k.val = 0 + k.val * (0 + 1); omega

/-- High padding on the second axis of a matrix: past the operand. -/
theorem pad_hi1_outside {a b b' : ℕ} (p : ℕ) (x : (⟨2, ![a, b]⟩ : Shape).Idx → EReal) (v : S_.Idx → EReal)
    (hp : (⟨2, ![a, b]⟩ : Shape).Pads (![0, 0] : Fin 2 → Nat) ![0, p] ![0, 0] ⟨2, ![a, b']⟩) (hu : 0 < S_.numel)
    (r : Fin a) (k : Fin b') (h : ¬ k.val < b) :
    pad ⟨2, ![a, b']⟩ ![0, 0] ![0, p] ![0, 0] x v hp hu (ix2 r k) = v (Shape.Idx.first hu) :=
  pad_apply_of_not_inside _ _ _ x v hp hu (ix2 r k) (1 : Fin 2) fun hin => by
    have e : (k.val - 0) / (0 + 1) < b := hin.2.2
    rw [Nat.sub_zero, Nat.zero_add, Nat.div_one] at e
    exact h e

/-- High padding on the first axis of a matrix: inside the operand. -/
theorem pad_hi0_inside {a a' b : ℕ} (p : ℕ) (x : (⟨2, ![a, b]⟩ : Shape).Idx → EReal) (v : S_.Idx → EReal)
    (hp : (⟨2, ![a, b]⟩ : Shape).Pads (![0, 0] : Fin 2 → Nat) ![p, 0] ![0, 0] ⟨2, ![a', b]⟩) (hu : 0 < S_.numel)
    (k : Fin a') (j : Fin b) (h : k.val < a) :
    pad ⟨2, ![a', b]⟩ ![0, 0] ![p, 0] ![0, 0] x v hp hu (ix2 k j) = x (ix2 ⟨k.val, h⟩ j) :=
  pad_apply_of_inside _ _ _ x v hp hu (ix2 k j) (ix2 ⟨k.val, h⟩ j) fun ax => match ax with
    | ⟨0, _⟩ => by show k.val = 0 + k.val * (0 + 1); omega
    | ⟨1, _⟩ => by show j.val = 0 + j.val * (0 + 1); omega

/-- High padding on the first axis of a matrix: past the operand. -/
theorem pad_hi0_outside {a a' b : ℕ} (p : ℕ) (x : (⟨2, ![a, b]⟩ : Shape).Idx → EReal) (v : S_.Idx → EReal)
    (hp : (⟨2, ![a, b]⟩ : Shape).Pads (![0, 0] : Fin 2 → Nat) ![p, 0] ![0, 0] ⟨2, ![a', b]⟩) (hu : 0 < S_.numel)
    (k : Fin a') (j : Fin b) (h : ¬ k.val < a) :
    pad ⟨2, ![a', b]⟩ ![0, 0] ![p, 0] ![0, 0] x v hp hu (ix2 k j) = v (Shape.Idx.first hu) :=
  pad_apply_of_not_inside _ _ _ x v hp hu (ix2 k j) (0 : Fin 2) fun hin => by
    have e : (k.val - 0) / (0 + 1) < a := hin.2.2
    rw [Nat.sub_zero, Nat.zero_add, Nat.div_one] at e
    exact h e

/-! ## The arrays read at an index -/

/-- `w_in` padded: itself below column 41024, zero from there on. -/
theorem V_v0_apply (r : Fin 4096) (k : Fin 41984) :
    (V m c main_v0 : S4096x41984.Idx → EReal) (ix2 r k)
      = (if h : k.val < 41024 then (m ((c : Thread nD τ).loc main_arg2) : S4096x41024.Idx → EReal) (ix2 r ⟨k.val, h⟩) else (0 : EReal) : EReal) := by
  rw [V_v0_eq]
  by_cases h : k.val < 41024
  · rw [dif_pos h]
    exact pad_hi1_inside 960 _ _ _ _ r k h
  · rw [dif_neg h]
    exact (pad_hi1_outside 960 _ _ _ _ r k h).trans (padValue_apply _)

/-- `b_in` padded, likewise. -/
theorem V_v1_apply (r : Fin 4096) (k : Fin 41984) :
    (V m c main_v1 : S4096x41984.Idx → EReal) (ix2 r k)
      = (if h : k.val < 41024 then (m ((c : Thread nD τ).loc main_arg3) : S4096x41024.Idx → EReal) (ix2 r ⟨k.val, h⟩) else (0 : EReal) : EReal) := by
  rw [V_v1_eq]
  by_cases h : k.val < 41024
  · rw [dif_pos h]
    exact pad_hi1_inside 960 _ _ _ _ r k h
  · rw [dif_neg h]
    exact (pad_hi1_outside 960 _ _ _ _ r k h).trans (padValue_apply _)

/-- `W_in` transposed and padded: `W_in[j, k]` below row 41024, zero from there on. -/
theorem V_v3_apply (k : Fin 41984) (j : Fin 256) :
    (V m c main_v3 : S41984x256.Idx → EReal) (ix2 k j)
      = (if h : k.val < 41024 then (m ((c : Thread nD τ).loc main_arg4) : S256x41024.Idx → EReal) (ix2 j ⟨k.val, h⟩) else (0 : EReal) : EReal) := by
  rw [V_v3_eq]
  by_cases h : k.val < 41024
  · rw [dif_pos h]
    refine (pad_hi0_inside 960 _ _ _ _ k j h).trans ?_
    exact transpose_ix2_apply _ _ ⟨k.val, h⟩ j
  · rw [dif_neg h]
    exact (pad_hi0_outside 960 _ _ _ _ k j h).trans (padValue_apply _)

/-- The feature bias as one row. -/
theorem V_v4_apply (u : Fin 1) (j : Fin 256) :
    (V m c main_v4 : S1x256.Idx → EReal) (ix2 u j) = (m ((c : Thread nD τ).loc main_arg5) : S256.Idx → EReal) (ix1 j) := by
  rw [V_v4_eq]
  exact shapeCast_a_1a_apply _ _ u j

/-- `W1` transposed. -/
theorem V_v5_apply (h : Fin 512) (p : Fin 32) :
    (V m c main_v5 : S512x32.Idx → EReal) (ix2 h p) = (m ((c : Thread nD τ).loc main_arg6) : S32x512.Idx → EReal) (ix2 p h) := by
  rw [V_v5_eq]
  exact transpose_ix2_apply _ _ h p

/-- `W2` transposed. -/
theorem V_v6_apply (p q : Fin 32) :
    (V m c main_v6 : S32x32.Idx → EReal) (ix2 p q) = (m ((c : Thread nD τ).loc main_arg8) : S32x32.Idx → EReal) (ix2 q p) := by
  rw [V_v6_eq]
  exact transpose_ix2_apply _ _ p q

/-- `Wo` transposed. -/
theorem V_v7_apply (q : Fin 32) (u : Fin 1) :
    (V m c main_v7 : S32x1.Idx → EReal) (ix2 q u) = (m ((c : Thread nD τ).loc main_arg10) : S1x32.Idx → EReal) (ix2 (0 : Fin 1) q) := by
  have hu : u = 0 := Subsingleton.elim _ _
  subst hu
  rw [V_v7_eq]
  exact transpose_ix2_apply _ _ q (0 : Fin 1)

/-- `b1` as one row. -/
theorem V_v8_apply (u : Fin 1) (p : Fin 32) :
    (V m c main_v8 : S1x32.Idx → EReal) (ix2 u p) = (m ((c : Thread nD τ).loc main_arg7) : S32.Idx → EReal) (ix1 p) := by
  rw [V_v8_eq]
  exact shapeCast_a_1a_apply _ _ u p

/-- `b2` as one row. -/
theorem V_v9_apply (u : Fin 1) (q : Fin 32) :
    (V m c main_v9 : S1x32.Idx → EReal) (ix2 u q) = (m ((c : Thread nD τ).loc main_arg9) : S32.Idx → EReal) (ix1 q) := by
  rw [V_v9_eq]
  exact shapeCast_a_1a_apply _ _ u q

/-- `bo` as a one-by-one matrix. -/
theorem V_v10_apply (u v : Fin 1) :
    (V m c main_v10 : S1x1.Idx → EReal) (ix2 u v) = (m ((c : Thread nD τ).loc main_arg11) : S1.Idx → EReal) (ix1 (0 : Fin 1)) := by
  have hv : v = 0 := Subsingleton.elim _ _
  subst hv
  rw [V_v10_eq]
  exact shapeCast_a_1a_apply _ _ u (0 : Fin 1)

end Cert.KHost

end
-- ==== Proof.KBlocks.lean ====
/-
  Each window's block at grid point `t`, read off its array as the region finds it. The grid is 4 row tiles by 41
  K-steps, the K-step the fast axis: point `t` is row tile `t / 41` at K-step `t % 41`. A block's entry `y` is the array's
  entry at (block index) × (block size) + `y` on each axis:
    the two batch operands : rows 1024·(t/41) + r, columns 1024·(t%41) + q of the padded [4096, 41984] arrays;
    the feature weights    : rows 1024·(t%41) + q of the padded transposed [41984, 256] array, every column;
    the per-row scalars    : rows 1024·(t/41) + r of the [4096, 1] arrays;
    the small operands     : the whole array at every point.
-/
import proofs.«156463_j14499809591732_1_alg».proof.Proof.Gen.KernelIdeal.Frame
import Idealize.ShloMosaic.Lib.Pipeline.Value
import Idealize.ShloMosaic.Lib.ValueIdx

noncomputable section

namespace Cert.KBlocks

open Cert.KernelIdeal Cert.KernelIdeal.Gen Idealize.ShloMosaic Idealize.ShloMosaic.TcCoe Idealize.ShloMosaic.ValueIdx Idealize.SL.Sem

variable {F : FTy → Type} [FloatOps F]
variable (m : (ℓ : Loc nD τ sig) → Buf (Elt F) ℓ)

/-! ## The index maps over the grid, decided once -/

theorem index0 : ∀ t : Fin cfg0.N, win0_0.index t 0 = t.val / 41 ∧ win0_0.index t 1 = t.val % 41 :=
  (by decide +kernel : ∀ t : Fin grid0.N, win0_0.index t 0 = t.val / 41 ∧ win0_0.index t 1 = t.val % 41)

theorem index1 : ∀ t : Fin cfg0.N, win0_1.index t 0 = t.val / 41 ∧ win0_1.index t 1 = t.val % 41 :=
  (by decide +kernel : ∀ t : Fin grid0.N, win0_1.index t 0 = t.val / 41 ∧ win0_1.index t 1 = t.val % 41)

theorem index2 : ∀ t : Fin cfg0.N, win0_2.index t 0 = t.val % 41 ∧ win0_2.index t 1 = 0 :=
  (by decide +kernel : ∀ t : Fin grid0.N, win0_2.index t 0 = t.val % 41 ∧ win0_2.index t 1 = 0)

theorem index4 : ∀ t : Fin cfg0.N, win0_4.index t 0 = t.val / 41 ∧ win0_4.index t 1 = 0 :=
  (by decide +kernel : ∀ t : Fin grid0.N, win0_4.index t 0 = t.val / 41 ∧ win0_4.index t 1 = 0)

theorem index5 : ∀ t : Fin cfg0.N, win0_5.index t 0 = t.val / 41 ∧ win0_5.index t 1 = 0 :=
  (by decide +kernel : ∀ t : Fin grid0.N, win0_5.index t 0 = t.val / 41 ∧ win0_5.index t 1 = 0)

theorem index12 : ∀ t : Fin cfg0.N, win0_12.index t 0 = t.val / 41 ∧ win0_12.index t 1 = 0 :=
  (by decide +kernel : ∀ t : Fin grid0.N, win0_12.index t 0 = t.val / 41 ∧ win0_12.index t 1 = 0)

/-! ## The blocks that move with the point -/

/-- The first batch operand's block: entry `(r, q)` is the padded array's entry `i` with the stated coordinates. -/
theorem blk0_apply (c : Dev nD) (t : Fin cfg0.N) (r q : Fin 1024) (i : S4096x41984.Idx)
    (h0 : (i 0).val = 1024 * (t.val / 41) + r.val) (h1 : (i 1).val = 1024 * (t.val % 41) + q.val) :
    (iblk m c 0 t : Vec F S1024x1024 .f32) (ix2 r q) = (V m c main_v0 : Vec F S4096x41984 .f32) i := by
  unfold iblk
  rw [View.read_apply]
  show (V m c main_v0 : Vec F S4096x41984 .f32) (((cfg0.win 0).blk t).view.emb (ix2 r q)) = _
  congr 1
  funext a
  apply Fin.ext
  match a with
  | ⟨0, _⟩ => show win0_0.index t 0 * 1024 + 1 * r.val = (i 0).val; rw [(index0 t).1, h0]; omega
  | ⟨1, _⟩ => show win0_0.index t 1 * 1024 + 1 * q.val = (i 1).val; rw [(index0 t).2, h1]; omega

/-- The second batch operand's block, likewise. -/
theorem blk1_apply (c : Dev nD) (t : Fin cfg0.N) (r q : Fin 1024) (i : S4096x41984.Idx)
    (h0 : (i 0).val = 1024 * (t.val / 41) + r.val) (h1 : (i 1).val = 1024 * (t.val % 41) + q.val) :
    (iblk m c 1 t : Vec F S1024x1024 .f32) (ix2 r q) = (V m c main_v1 : Vec F S4096x41984 .f32) i := by
  unfold iblk
  rw [View.read_apply]
  show (V m c main_v1 : Vec F S4096x41984 .f32) (((cfg0.win 1).blk t).view.emb (ix2 r q)) = _
  congr 1
  funext a
  apply Fin.ext
  match a with
  | ⟨0, _⟩ => show win0_1.index t 0 * 1024 + 1 * r.val = (i 0).val; rw [(index1 t).1, h0]; omega
  | ⟨1, _⟩ => show win0_1.index t 1 * 1024 + 1 * q.val = (i 1).val; rw [(index1 t).2, h1]; omega

/-- The feature weights' block: entry `(q, j)` is row `1024·(t%41) + q`, column `j` of the padded transposed array. -/
theorem blk2_apply (c : Dev nD) (t : Fin cfg0.N) (q : Fin 1024) (j : Fin 256) (i : S41984x256.Idx)
    (h0 : (i 0).val = 1024 * (t.val % 41) + q.val) (h1 : (i 1).val = j.val) :
    (iblk m c 2 t : Vec F S1024x256 .f32) (ix2 q j) = (V m c main_v3 : Vec F S41984x256 .f32) i := by
  unfold iblk
  rw [View.read_apply]
  show (V m c main_v3 : Vec F S41984x256 .f32) (((cfg0.win 2).blk t).view.emb (ix2 q j)) = _
  congr 1
  funext a
  apply Fin.ext
  match a with
  | ⟨0, _⟩ => show win0_2.index t 0 * 1024 + 1 * q.val = (i 0).val; rw [(index2 t).1, h0]; omega
  | ⟨1, _⟩ => show win0_2.index t 1 * 256 + 1 * j.val = (i 1).val; rw [(index2 t).2, h1]; omega

/-- The first per-row scalar's block: entry `(r, u)` is row `1024·(t/41) + r` of the column. -/
theorem blk4_apply (c : Dev nD) (t : Fin cfg0.N) (r : Fin 1024) (u : Fin 1) (i : S4096x1.Idx)
    (h0 : (i 0).val = 1024 * (t.val / 41) + r.val) :
    (iblk m c 4 t : Vec F S1024x1 .f32) (ix2 r u) = (V m c main_arg0 : Vec F S4096x1 .f32) i := by
  unfold iblk
  rw [View.read_apply]
  show (V m c main_arg0 : Vec F S4096x1 .f32) (((cfg0.win 4).blk t).view.emb (ix2 r u)) = _
  congr 1
  funext a
  apply Fin.ext
  match a with
  | ⟨0, _⟩ => show win0_4.index t 0 * 1024 + 1 * r.val = (i 0).val; rw [(index4 t).1, h0]; omega
  | ⟨1, _⟩ => show win0_4.index t 1 * 1 + 1 * u.val = (i 1).val; rw [(index4 t).2]; have hi : (i 1).val < 1 := (i 1).isLt; have hu : u.val < 1 := u.isLt; omega

/-- The second per-row scalar's block, likewise. -/
theorem blk5_apply (c : Dev nD) (t : Fin cfg0.N) (r : Fin 1024) (u : Fin 1) (i : S4096x1.Idx)
    (h0 : (i 0).val = 1024 * (t.val / 41) + r.val) :
    (iblk m c 5 t : Vec F S1024x1 .f32) (ix2 r u) = (V m c main_arg1 : Vec F S4096x1 .f32) i := by
  unfold iblk
  rw [View.read_apply]
  show (V m c main_arg1 : Vec F S4096x1 .f32) (((cfg0.win 5).blk t).view.emb (ix2 r u)) = _
  congr 1
  funext a
  apply Fin.ext
  match a with
  | ⟨0, _⟩ => show win0_5.index t 0 * 1024 + 1 * r.val = (i 0).val; rw [(index5 t).1, h0]; omega
  | ⟨1, _⟩ => show win0_5.index t 1 * 1 + 1 * u.val = (i 1).val; rw [(index5 t).2]; have hi : (i 1).val < 1 := (i 1).isLt; have hu : u.val < 1 := u.isLt; omega

/-! ## The windows whose one block is the whole array -/

theorem index3 : ∀ t : Fin cfg0.N, win0_3.index t 0 = 0 ∧ win0_3.index t 1 = 0 :=
  (by decide +kernel : ∀ t : Fin grid0.N, win0_3.index t 0 = 0 ∧ win0_3.index t 1 = 0)

/-- Window 3's block is its whole array at every point. -/
theorem blk3_eq (c : Dev nD) (t : Fin cfg0.N) :
    (iblk m c 3 t : Vec F S1x256 .f32) = (V m c main_v4 : Vec F S1x256 .f32) := by
  funext y
  unfold iblk
  rw [View.read_apply]
  show (V m c main_v4 : Vec F S1x256 .f32) (((cfg0.win 3).blk t).view.emb y) = _
  congr 1
  funext a
  apply Fin.ext
  match a with
  | ⟨0, _⟩ => show win0_3.index t 0 * 1 + 1 * (y 0).val = (y 0).val; rw [(index3 t).1]; omega
  | ⟨1, _⟩ => show win0_3.index t 1 * 256 + 1 * (y 1).val = (y 1).val; rw [(index3 t).2]; omega

theorem index6 : ∀ t : Fin cfg0.N, win0_6.index t 0 = 0 ∧ win0_6.index t 1 = 0 :=
  (by decide +kernel : ∀ t : Fin grid0.N, win0_6.index t 0 = 0 ∧ win0_6.index t 1 = 0)

/-- Window 6's block is its whole array at every point. -/
theorem blk6_eq (c : Dev nD) (t : Fin cfg0.N) :
    (iblk m c 6 t : Vec F S512x32 .f32) = (V m c main_v5 : Vec F S512x32 .f32) := by
  funext y
  unfold iblk
  rw [View.read_apply]
  show (V m c main_v5 : Vec F S512x32 .f32) (((cfg0.win 6).blk t).view.emb y) = _
  congr 1
  funext a
  apply Fin.ext
  match a with
  | ⟨0, _⟩ => show win0_6.index t 0 * 512 + 1 * (y 0).val = (y 0).val; rw [(index6 t).1]; omega
  | ⟨1, _⟩ => show win0_6.index t 1 * 32 + 1 * (y 1).val = (y 1).val; rw [(index6 t).2]; omega

theorem index7 : ∀ t : Fin cfg0.N, win0_7.index t 0 = 0 ∧ win0_7.index t 1 = 0 :=
  (by decide +kernel : ∀ t : Fin grid0.N, win0_7.index t 0 = 0 ∧ win0_7.index t 1 = 0)

/-- Window 7's block is its whole array at every point. -/
theorem blk7_eq (c : Dev nD) (t : Fin cfg0.N) :
    (iblk m c 7 t : Vec F S1x32 .f32) = (V m c main_v8 : Vec F S1x32 .f32) := by
  funext y
  unfold iblk
  rw [View.read_apply]
  show (V m c main_v8 : Vec F S1x32 .f32) (((cfg0.win 7).blk t).view.emb y) = _
  congr 1
  funext a
  apply Fin.ext
  match a with
  | ⟨0, _⟩ => show win0_7.index t 0 * 1 + 1 * (y 0).val = (y 0).val; rw [(index7 t).1]; omega
  | ⟨1, _⟩ => show win0_7.index t 1 * 32 + 1 * (y 1).val = (y 1).val; rw [(index7 t).2]; omega

theorem index8 : ∀ t : Fin cfg0.N, win0_8.index t 0 = 0 ∧ win0_8.index t 1 = 0 :=
  (by decide +kernel : ∀ t : Fin grid0.N, win0_8.index t 0 = 0 ∧ win0_8.index t 1 = 0)

/-- Window 8's block is its whole array at every point. -/
theorem blk8_eq (c : Dev nD) (t : Fin cfg0.N) :
    (iblk m c 8 t : Vec F S32x32 .f32) = (V m c main_v6 : Vec F S32x32 .f32) := by
  funext y
  unfold iblk
  rw [View.read_apply]
  show (V m c main_v6 : Vec F S32x32 .f32) (((cfg0.win 8).blk t).view.emb y) = _
  congr 1
  funext a
  apply Fin.ext
  match a with
  | ⟨0, _⟩ => show win0_8.index t 0 * 32 + 1 * (y 0).val = (y 0).val; rw [(index8 t).1]; omega
  | ⟨1, _⟩ => show win0_8.index t 1 * 32 + 1 * (y 1).val = (y 1).val; rw [(index8 t).2]; omega

theorem index9 : ∀ t : Fin cfg0.N, win0_9.index t 0 = 0 ∧ win0_9.index t 1 = 0 :=
  (by decide +kernel : ∀ t : Fin grid0.N, win0_9.index t 0 = 0 ∧ win0_9.index t 1 = 0)

/-- Window 9's block is its whole array at every point. -/
theorem blk9_eq (c : Dev nD) (t : Fin cfg0.N) :
    (iblk m c 9 t : Vec F S1x32 .f32) = (V m c main_v9 : Vec F S1x32 .f32) := by
  funext y
  unfold iblk
  rw [View.read_apply]
  show (V m c main_v9 : Vec F S1x32 .f32) (((cfg0.win 9).blk t).view.emb y) = _
  congr 1
  funext a
  apply Fin.ext
  match a with
  | ⟨0, _⟩ => show win0_9.index t 0 * 1 + 1 * (y 0).val = (y 0).val; rw [(index9 t).1]; omega
  | ⟨1, _⟩ => show win0_9.index t 1 * 32 + 1 * (y 1).val = (y 1).val; rw [(index9 t).2]; omega

theorem index10 : ∀ t : Fin cfg0.N, win0_10.index t 0 = 0 ∧ win0_10.index t 1 = 0 :=
  (by decide +kernel : ∀ t : Fin grid0.N, win0_10.index t 0 = 0 ∧ win0_10.index t 1 = 0)

/-- Window 10's block is its whole array at every point. -/
theorem blk10_eq (c : Dev nD) (t : Fin cfg0.N) :
    (iblk m c 10 t : Vec F S32x1 .f32) = (V m c main_v7 : Vec F S32x1 .f32) := by
  funext y
  unfold iblk
  rw [View.read_apply]
  show (V m c main_v7 : Vec F S32x1 .f32) (((cfg0.win 10).blk t).view.emb y) = _
  congr 1
  funext a
  apply Fin.ext
  match a with
  | ⟨0, _⟩ => show win0_10.index t 0 * 32 + 1 * (y 0).val = (y 0).val; rw [(index10 t).1]; omega
  | ⟨1, _⟩ => show win0_10.index t 1 * 1 + 1 * (y 1).val = (y 1).val; rw [(index10 t).2]; omega

theorem index11 : ∀ t : Fin cfg0.N, win0_11.index t 0 = 0 ∧ win0_11.index t 1 = 0 :=
  (by decide +kernel : ∀ t : Fin grid0.N, win0_11.index t 0 = 0 ∧ win0_11.index t 1 = 0)

/-- Window 11's block is its whole array at every point. -/
theorem blk11_eq (c : Dev nD) (t : Fin cfg0.N) :
    (iblk m c 11 t : Vec F S1x1 .f32) = (V m c main_v10 : Vec F S1x1 .f32) := by
  funext y
  unfold iblk
  rw [View.read_apply]
  show (V m c main_v10 : Vec F S1x1 .f32) (((cfg0.win 11).blk t).view.emb y) = _
  congr 1
  funext a
  apply Fin.ext
  match a with
  | ⟨0, _⟩ => show win0_11.index t 0 * 1 + 1 * (y 0).val = (y 0).val; rw [(index11 t).1]; omega
  | ⟨1, _⟩ => show win0_11.index t 1 * 1 + 1 * (y 1).val = (y 1).val; rw [(index11 t).2]; omega

end Cert.KBlocks

end
-- ==== Proof.KFold.lean ====
/-
  The accumulators after the last K-step of a row tile.

  Within row tile `μ` (points 41μ … 41μ + 40) the first K-step leaves `0 + P₀` and every later one adds its block
  product, so after K-step `s` the first accumulator holds `0 + ∑_{s' ≤ s} P_{s'}`, where at entry `(r, j)`
    P_s = ∑_{q < 1024} A[1024μ + r, 1024s + q] · B[1024s + q, j]
  over the padded arrays `A` (the batch operand, [4096, 41984]) and `B` (the transposed weights, [41984, 256]).
  After K-step 40 the double sum runs over all 41984 = 41·1024 columns; the 960 padded ones contribute `x·0 = 0`, and
  what is left is the plain sum `∑_{k < 41024} x[1024μ + r, k] · W_in[j, k]`. The second accumulator is the same with the
  other batch operand. Only commutativity and associativity of `+`, `x + 0 = x` and `x·0 = 0` are used.
-/
import proofs.«156463_j14499809591732_1_alg».proof.Proof.Gen.KernelIdeal.Value
import proofs.«156463_j14499809591732_1_alg».proof.Proof.Spec
import proofs.«156463_j14499809591732_1_alg».proof.Proof.KPieces
import proofs.«156463_j14499809591732_1_alg».proof.Proof.KTail
import proofs.«156463_j14499809591732_1_alg».proof.Proof.KHost
import proofs.«156463_j14499809591732_1_alg».proof.Proof.KBlocks
import Idealize.ShloMosaic.Lib.Pipeline.Value
import Idealize.ShloMosaic.Lib.ValueIdx

noncomputable section

open scoped BigOperators

namespace Cert.KFold

open Cert.KernelIdeal Cert.KernelIdeal.Gen Cert.KernelIdeal.Value Idealize.ShloMosaic Idealize.ShloMosaic.TcCoe
  Idealize.ShloMosaic.ValueIdx Idealize.SL.Sem

variable (m : (ℓ : Loc nD τ sig) → Buf (Elt Ideal) ℓ)

theorem N164 : cfg0.N = 164 := N_0

/-! ## The blocks and arrays, named at their literal types -/

/-- The first batch operand's block at a point. -/
abbrev blkW (c : Dev nD) (t : Fin cfg0.N) : Vec Ideal S1024x1024 .f32 := iblk m c 0 t
/-- The second batch operand's block at a point. -/
abbrev blkB (c : Dev nD) (t : Fin cfg0.N) : Vec Ideal S1024x1024 .f32 := iblk m c 1 t
/-- The feature weights' block at a point. -/
abbrev blkT (c : Dev nD) (t : Fin cfg0.N) : Vec Ideal S1024x256 .f32 := iblk m c 2 t
/-- The first batch operand, padded, as the region finds it. -/
abbrev padW (c : Dev nD) : Vec Ideal S4096x41984 .f32 := V m c main_v0
/-- The second batch operand, padded. -/
abbrev padB (c : Dev nD) : Vec Ideal S4096x41984 .f32 := V m c main_v1
/-- The feature weights, transposed and padded. -/
abbrev padT (c : Dev nD) : Vec Ideal S41984x256 .f32 := V m c main_v3
/-- The first batch operand as launched. -/
abbrev argW (c : Dev nD) : Vec Ideal S4096x41024 .f32 := m ((c : Thread nD τ).loc main_arg2)
/-- The second batch operand as launched. -/
abbrev argB (c : Dev nD) : Vec Ideal S4096x41024 .f32 := m ((c : Thread nD τ).loc main_arg3)
/-- The feature weights as launched. -/
abbrev argT (c : Dev nD) : Vec Ideal S256x41024 .f32 := m ((c : Thread nD τ).loc main_arg4)

theorem blkW_apply (c : Dev nD) (t : Fin cfg0.N) (r q : Fin 1024) (i : S4096x41984.Idx)
    (h0 : (i 0).val = 1024 * (t.val / 41) + r.val) (h1 : (i 1).val = 1024 * (t.val % 41) + q.val) :
    blkW m c t (ix2 r q) = padW m c i := KBlocks.blk0_apply m c t r q i h0 h1

theorem blkB_apply (c : Dev nD) (t : Fin cfg0.N) (r q : Fin 1024) (i : S4096x41984.Idx)
    (h0 : (i 0).val = 1024 * (t.val / 41) + r.val) (h1 : (i 1).val = 1024 * (t.val % 41) + q.val) :
    blkB m c t (ix2 r q) = padB m c i := KBlocks.blk1_apply m c t r q i h0 h1

theorem blkT_apply (c : Dev nD) (t : Fin cfg0.N) (q : Fin 1024) (j : Fin 256) (i : S41984x256.Idx)
    (h0 : (i 0).val = 1024 * (t.val % 41) + q.val) (h1 : (i 1).val = j.val) :
    blkT m c t (ix2 q j) = padT m c i := KBlocks.blk2_apply m c t q j i h0 h1

theorem padW_apply (c : Dev nD) (r : Fin 4096) (k : Fin 41984) :
    padW m c (ix2 r k) = (if h : k.val < 41024 then argW m c (ix2 r ⟨k.val, h⟩) else (0 : EReal) : EReal) :=
  KHost.V_v0_apply m c r k

theorem padB_apply (c : Dev nD) (r : Fin 4096) (k : Fin 41984) :
    padB m c (ix2 r k) = (if h : k.val < 41024 then argB m c (ix2 r ⟨k.val, h⟩) else (0 : EReal) : EReal) :=
  KHost.V_v1_apply m c r k

theorem padT_apply (c : Dev nD) (k : Fin 41984) (j : Fin 256) :
    padT m c (ix2 k j) = (if h : k.val < 41024 then argT m c (ix2 j ⟨k.val, h⟩) else (0 : EReal) : EReal) :=
  KHost.V_v3_apply m c k j

/-! ## A point's block product over the padded arrays -/

/-- Term `k` of row `R` of `A` against column `j` of `B`; zero outside the arrays. -/
def term (A : Vec Ideal S4096x41984 .f32) (B : Vec Ideal S41984x256 .f32) (R : ℕ) (j : Fin 256) (k : ℕ) : EReal :=
  if h : R < 4096 ∧ k < 41984 then A (ix2 ⟨R, h.1⟩ ⟨k, h.2⟩) * B (ix2 ⟨k, h.2⟩ j) else 0

/-- What grid point `n` adds to accumulator entry `(r, j)`: its block product there. -/
def addend (A : Vec Ideal S4096x41984 .f32) (B : Vec Ideal S41984x256 .f32) (n : ℕ) (r : Fin 1024) (j : Fin 256) : EReal :=
  ∑ q : Fin 1024, term A B (1024 * (n / 41) + r.val) j (1024 * (n % 41) + q.val)

/-- A point's block product with the first batch operand is its addend over the padded arrays. -/
theorem blockProdW (c : Dev nD) (t : Fin cfg0.N) (r : Fin 1024) (j : Fin 256) :
    ∑ q : Fin 1024, blkW m c t (ix2 r q) * blkT m c t (ix2 q j) = addend (padW m c) (padT m c) t.val r j := by
  have hN : t.val < 164 := lt_of_lt_of_eq t.isLt N164
  unfold addend
  refine Finset.sum_congr rfl fun q _ => ?_
  have hR : 1024 * (t.val / 41) + r.val < 4096 := by have := r.isLt; omega
  have hk : 1024 * (t.val % 41) + q.val < 41984 := by have := q.isLt; omega
  unfold term
  rw [dif_pos ⟨hR, hk⟩, blkW_apply m c t r q (ix2 ⟨_, hR⟩ ⟨_, hk⟩) rfl rfl, blkT_apply m c t q j (ix2 ⟨_, hk⟩ j) rfl rfl]

/-- The same with the second batch operand. -/
theorem blockProdB (c : Dev nD) (t : Fin cfg0.N) (r : Fin 1024) (j : Fin 256) :
    ∑ q : Fin 1024, blkB m c t (ix2 r q) * blkT m c t (ix2 q j) = addend (padB m c) (padT m c) t.val r j := by
  have hN : t.val < 164 := lt_of_lt_of_eq t.isLt N164
  unfold addend
  refine Finset.sum_congr rfl fun q _ => ?_
  have hR : 1024 * (t.val / 41) + r.val < 4096 := by have := r.isLt; omega
  have hk : 1024 * (t.val % 41) + q.val < 41984 := by have := q.isLt; omega
  unfold term
  rw [dif_pos ⟨hR, hk⟩, blkB_apply m c t r q (ix2 ⟨_, hR⟩ ⟨_, hk⟩) rfl rfl, blkT_apply m c t q j (ix2 ⟨_, hk⟩ j) rfl rfl]

/-! ## The fold, unrolled -/

/-- The first accumulator `j'` steps into row tile `μ`'s run: zero plus the addends of the points so far. -/
theorem accW_fold (c : Dev nD) (μ j' : ℕ) (hj : j' ≤ 40) (h : 41 * μ + j' < cfg0.N) (r : Fin 1024) (j : Fin 256) :
    Pipeline.accAt (fun n h => scAt0_0 m c n h (VS0_0.read (Elt Ideal) VS0_0.junk)) (scAt0_0 m c) (41 * μ) j' h (ix2 r j)
      = 0 + ∑ s ∈ Finset.range (j' + 1), addend (padW m c) (padT m c) (41 * μ + s) r j := by
  refine Pipeline.accAt_add_apply (ι := S1024x256.Idx) (β := EReal)
    (fun n h => scAt0_0 m c n h (VS0_0.read (Elt Ideal) VS0_0.junk)) (scAt0_0 m c)
    (fun _ => (0 : EReal)) (fun n i => addend (padW m c) (padT m c) n (i 0) (i 1)) (41 * μ) 40 ?_ ?_ j' hj h (ix2 r j)
  · intro hb i
    obtain ⟨r, j, rfl⟩ : ∃ (r : Fin 1024) (j : Fin 256), i = ix2 r j := ⟨i 0, i 1, eq_ix2 i⟩
    show _ = (0 : EReal) + addend (padW m c) (padT m c) (41 * μ) r j
    unfold scAt0_0
    rw [dif_pos (by omega : 41 * μ % 41 = 0), dif_neg (by omega : ¬ 41 * μ % 41 = 40)]
    rw [KPieces.accW_first]
    refine (KTail.pay4_apply (blkT m c ⟨41 * μ, hb⟩) (blkW m c ⟨41 * μ, hb⟩) (k0_pay1 (F := Ideal)) r j).trans ?_
    rw [KTail.pay1_apply, blockProdW m c ⟨41 * μ, hb⟩ r j]
  · intro n hn acc i hlo hhi
    obtain ⟨r, j, rfl⟩ : ∃ (r : Fin 1024) (j : Fin 256), i = ix2 r j := ⟨i 0, i 1, eq_ix2 i⟩
    show _ = acc (ix2 r j) + addend (padW m c) (padT m c) n r j
    have h0 : ¬ n % 41 = 0 := by omega
    unfold scAt0_0
    by_cases h1 : n % 41 = 40
    · rw [dif_neg h0, dif_pos h1]
      rw [KPieces.accW_last]
      refine (KTail.pay4_apply (blkT m c ⟨n, hn⟩) (blkW m c ⟨n, hn⟩) acc r j).trans ?_
      rw [blockProdW m c ⟨n, hn⟩ r j]
    · rw [dif_neg h0, dif_neg h1]
      rw [KPieces.accW_mid]
      refine (KTail.pay4_apply (blkT m c ⟨n, hn⟩) (blkW m c ⟨n, hn⟩) acc r j).trans ?_
      rw [blockProdW m c ⟨n, hn⟩ r j]

/-- The second accumulator, likewise, with the second batch operand. -/
theorem accB_fold (c : Dev nD) (μ j' : ℕ) (hj : j' ≤ 40) (h : 41 * μ + j' < cfg0.N) (r : Fin 1024) (j : Fin 256) :
    Pipeline.accAt (fun n h => scAt0_1 m c n h (VS0_1.read (Elt Ideal) VS0_1.junk)) (scAt0_1 m c) (41 * μ) j' h (ix2 r j)
      = 0 + ∑ s ∈ Finset.range (j' + 1), addend (padB m c) (padT m c) (41 * μ + s) r j := by
  refine Pipeline.accAt_add_apply (ι := S1024x256.Idx) (β := EReal)
    (fun n h => scAt0_1 m c n h (VS0_1.read (Elt Ideal) VS0_1.junk)) (scAt0_1 m c)
    (fun _ => (0 : EReal)) (fun n i => addend (padB m c) (padT m c) n (i 0) (i 1)) (41 * μ) 40 ?_ ?_ j' hj h (ix2 r j)
  · intro hb i
    obtain ⟨r, j, rfl⟩ : ∃ (r : Fin 1024) (j : Fin 256), i = ix2 r j := ⟨i 0, i 1, eq_ix2 i⟩
    show _ = (0 : EReal) + addend (padB m c) (padT m c) (41 * μ) r j
    unfold scAt0_1
    rw [dif_pos (by omega : 41 * μ % 41 = 0), dif_neg (by omega : ¬ 41 * μ % 41 = 40)]
    rw [KPieces.accB_first]
    refine (KTail.pay5_apply (blkT m c ⟨41 * μ, hb⟩) (blkB m c ⟨41 * μ, hb⟩) (k0_pay2 (F := Ideal)) r j).trans ?_
    rw [KTail.pay2_apply, blockProdB m c ⟨41 * μ, hb⟩ r j]
  · intro n hn acc i hlo hhi
    obtain ⟨r, j, rfl⟩ : ∃ (r : Fin 1024) (j : Fin 256), i = ix2 r j := ⟨i 0, i 1, eq_ix2 i⟩
    show _ = acc (ix2 r j) + addend (padB m c) (padT m c) n r j
    have h0 : ¬ n % 41 = 0 := by omega
    unfold scAt0_1
    by_cases h1 : n % 41 = 40
    · rw [dif_neg h0, dif_pos h1]
      rw [KPieces.accB_last]
      refine (KTail.pay5_apply (blkT m c ⟨n, hn⟩) (blkB m c ⟨n, hn⟩) acc r j).trans ?_
      rw [blockProdB m c ⟨n, hn⟩ r j]
    · rw [dif_neg h0, dif_neg h1]
      rw [KPieces.accB_mid]
      refine (KTail.pay5_apply (blkT m c ⟨n, hn⟩) (blkB m c ⟨n, hn⟩) acc r j).trans ?_
      rw [blockProdB m c ⟨n, hn⟩ r j]

/-! ## From the padded arrays to the arguments -/

/-- A padded term is the arguments' product below column 41024 and zero from there on (`x · 0 = 0`). -/
theorem termW_eq (c : Dev nD) (R : ℕ) (hR : R < 4096) (j : Fin 256) (k : ℕ) :
    term (padW m c) (padT m c) R j k
      = (if h : k < 41024 then argW m c (ix2 ⟨R, hR⟩ ⟨k, h⟩) * argT m c (ix2 j ⟨k, h⟩) else (0 : EReal) : EReal) := by
  unfold term
  by_cases hk : k < 41984
  · rw [dif_pos ⟨hR, hk⟩, padW_apply m c ⟨R, hR⟩ ⟨k, hk⟩, padT_apply m c ⟨k, hk⟩ j]
    by_cases h : k < 41024
    · rw [dif_pos h, dif_pos h, dif_pos h]
    · rw [dif_neg h, dif_neg h, dif_neg h, mul_zero]
  · rw [dif_neg (fun h => hk h.2), dif_neg (by omega)]

/-- After the last K-step of its row tile the first accumulator holds the plain feature-transform sums. -/
theorem accW_final (c : Dev nD) (t : Fin cfg0.N) (ht : t.val % 41 = 40) (r : Fin 1024) (j : Fin 256) (R : Fin 4096)
    (hR : R.val = 1024 * (t.val / 41) + r.val) :
    (outsAt0 m c t.val t.isLt).2.1 (ix2 r j) = ∑ k : Fin 41024, argW m c (ix2 R k) * argT m c (ix2 j k) := by
  have hN : t.val < 164 := lt_of_lt_of_eq t.isLt N164
  rw [soutsAt0_0_eq m c t]
  refine (accW_fold m c (t.val / 41) (t.val % 41) (by omega) _ r j).trans ?_
  rw [zero_add, ht]
  have hs : ∀ s ∈ Finset.range (40 + 1), addend (padW m c) (padT m c) (41 * (t.val / 41) + s) r j
      = ∑ q : Fin 1024, term (padW m c) (padT m c) R.val j (1024 * s + q.val) := by
    intro s hs
    have hs' : s < 41 := Finset.mem_range.mp hs
    have e1 : (41 * (t.val / 41) + s) / 41 = t.val / 41 := by omega
    have e2 : (41 * (t.val / 41) + s) % 41 = s := by omega
    unfold addend
    rw [e1, e2, hR]
  rw [Finset.sum_congr rfl hs]
  rw [Cert.Spec.sum_blocks_zero_tail 41 1024 41024 (by norm_num) (term (padW m c) (padT m c) R.val j)
    (fun k hk => by rw [termW_eq m c R.val R.isLt j k, dif_neg (by omega)])]
  refine Finset.sum_congr rfl fun k _ => ?_
  rw [termW_eq m c R.val R.isLt j k.val, dif_pos k.isLt]

/-- A padded term is the arguments' product below column 41024 and zero from there on (`x · 0 = 0`). -/
theorem termB_eq (c : Dev nD) (R : ℕ) (hR : R < 4096) (j : Fin 256) (k : ℕ) :
    term (padB m c) (padT m c) R j k
      = (if h : k < 41024 then argB m c (ix2 ⟨R, hR⟩ ⟨k, h⟩) * argT m c (ix2 j ⟨k, h⟩) else (0 : EReal) : EReal) := by
  unfold term
  by_cases hk : k < 41984
  · rw [dif_pos ⟨hR, hk⟩, padB_apply m c ⟨R, hR⟩ ⟨k, hk⟩, padT_apply m c ⟨k, hk⟩ j]
    by_cases h : k < 41024
    · rw [dif_pos h, dif_pos h, dif_pos h]
    · rw [dif_neg h, dif_neg h, dif_neg h, mul_zero]
  · rw [dif_neg (fun h => hk h.2), dif_neg (by omega)]

/-- After the last K-step of its row tile the second accumulator holds the plain feature-transform sums. -/
theorem accB_final (c : Dev nD) (t : Fin cfg0.N) (ht : t.val % 41 = 40) (r : Fin 1024) (j : Fin 256) (R : Fin 4096)
    (hR : R.val = 1024 * (t.val / 41) + r.val) :
    (outsAt0 m c t.val t.isLt).2.2 (ix2 r j) = ∑ k : Fin 41024, argB m c (ix2 R k) * argT m c (ix2 j k) := by
  have hN : t.val < 164 := lt_of_lt_of_eq t.isLt N164
  rw [soutsAt0_1_eq m c t]
  refine (accB_fold m c (t.val / 41) (t.val % 41) (by omega) _ r j).trans ?_
  rw [zero_add, ht]
  have hs : ∀ s ∈ Finset.range (40 + 1), addend (padB m c) (padT m c) (41 * (t.val / 41) + s) r j
      = ∑ q : Fin 1024, term (padB m c) (padT m c) R.val j (1024 * s + q.val) := by
    intro s hs
    have hs' : s < 41 := Finset.mem_range.mp hs
    have e1 : (41 * (t.val / 41) + s) / 41 = t.val / 41 := by omega
    have e2 : (41 * (t.val / 41) + s) % 41 = s := by omega
    unfold addend
    rw [e1, e2, hR]
  rw [Finset.sum_congr rfl hs]
  rw [Cert.Spec.sum_blocks_zero_tail 41 1024 41024 (by norm_num) (term (padB m c) (padT m c) R.val j)
    (fun k hk => by rw [termB_eq m c R.val R.isLt j k, dif_neg (by omega)])]
  refine Finset.sum_congr rfl fun k _ => ?_
  rw [termB_eq m c R.val R.isLt j k.val, dif_pos k.isLt]

end Cert.KFold

end
-- ==== Proof.KFinal.lean ====
/-
  The kernel's result array as ONE function of the arguments.

  `resultOf` is that function: entry `(R, ·)` is `Cert.Spec.rowOut` of row `R`'s plain feature-transform sums and the
  weights as the arguments hold them. The last K-step of row tile `μ` stores, at block row `r`, the epilogue of row `r`
  of the two accumulators, which by then hold row `1024μ + r`'s plain sums, together with that row's two scalars
  and the small operands, each of which the host operations before the region only transposed or gave a unit axis:
  so the stored block is block `μ` of `resultOf`. The four storing points (K-step 40 of each row tile) cover the 4096
  rows, so the array ends at `resultOf`.
-/
import proofs.«156463_j14499809591732_1_alg».proof.Proof.Gen.KernelIdeal.Value
import proofs.«156463_j14499809591732_1_alg».proof.Proof.Spec
import proofs.«156463_j14499809591732_1_alg».proof.Proof.KPieces
import proofs.«156463_j14499809591732_1_alg».proof.Proof.KTail
import proofs.«156463_j14499809591732_1_alg».proof.Proof.KHost
import proofs.«156463_j14499809591732_1_alg».proof.Proof.KBlocks
import proofs.«156463_j14499809591732_1_alg».proof.Proof.KFold
import Idealize.ShloMosaic.Lib.Pipeline.Value
import Idealize.ShloMosaic.Lib.ValueIdx

noncomputable section

open scoped BigOperators

namespace Cert.KFinal

open Cert.KernelIdeal Cert.KernelIdeal.Gen Cert.KernelIdeal.Value Idealize.ShloMosaic Idealize.ShloMosaic.TcCoe
  Idealize.ShloMosaic.ValueIdx Idealize.SL.Sem Cert.KFold
open Idealize.ShloMosaic.Pipeline (Dat)

/-! ## The result as a function of the twelve arguments -/

/-- Row `R` of the result from the arguments. -/
def rowResult (x0 x1 : Vec Ideal S4096x1 .f32) (x2 x3 : Vec Ideal S4096x41024 .f32) (x4 : Vec Ideal S256x41024 .f32) (x5 : Vec Ideal S256 .f32)
    (x6 : Vec Ideal S32x512 .f32) (x7 : Vec Ideal S32 .f32) (x8 : Vec Ideal S32x32 .f32) (x9 : Vec Ideal S32 .f32) (x10 : Vec Ideal S1x32 .f32)
    (x11 : Vec Ideal S1 .f32) (R : Fin 4096) : EReal :=
  Cert.Spec.rowOut (x0 (ix2 R (0 : Fin 1))) (x1 (ix2 R (0 : Fin 1)))
    (fun j => ∑ k : Fin 41024, x2 (ix2 R k) * x4 (ix2 j k))
    (fun j => ∑ k : Fin 41024, x3 (ix2 R k) * x4 (ix2 j k))
    (fun j => x5 (ix1 j))
    (fun p h => x6 (ix2 p h)) (fun p => x7 (ix1 p))
    (fun q p => x8 (ix2 q p)) (fun q => x9 (ix1 q))
    (fun q => x10 (ix2 (0 : Fin 1) q)) (x11 (ix1 (0 : Fin 1)))

/-- The whole [4096, 1] result: entry `i` is its row's value. -/
def resultOf (x0 x1 : Vec Ideal S4096x1 .f32) (x2 x3 : Vec Ideal S4096x41024 .f32) (x4 : Vec Ideal S256x41024 .f32) (x5 : Vec Ideal S256 .f32)
    (x6 : Vec Ideal S32x512 .f32) (x7 : Vec Ideal S32 .f32) (x8 : Vec Ideal S32x32 .f32) (x9 : Vec Ideal S32 .f32) (x10 : Vec Ideal S1x32 .f32)
    (x11 : Vec Ideal S1 .f32) : Vec Ideal S4096x1 .f32 :=
  fun i => rowResult x0 x1 x2 x3 x4 x5 x6 x7 x8 x9 x10 x11 (i 0)

variable (m : (ℓ : Loc nD τ sig) → Buf (Elt Ideal) ℓ) (ρ : Dev nD → PrngReg)

/-! ## The arguments and the remaining blocks, named at their literal types -/

abbrev argUs (c : Dev nD) : Vec Ideal S4096x1 .f32 := m ((c : Thread nD τ).loc main_arg0)
abbrev argThem (c : Dev nD) : Vec Ideal S4096x1 .f32 := m ((c : Thread nD τ).loc main_arg1)
abbrev argBias (c : Dev nD) : Vec Ideal S256 .f32 := m ((c : Thread nD τ).loc main_arg5)
abbrev argW1 (c : Dev nD) : Vec Ideal S32x512 .f32 := m ((c : Thread nD τ).loc main_arg6)
abbrev argb1 (c : Dev nD) : Vec Ideal S32 .f32 := m ((c : Thread nD τ).loc main_arg7)
abbrev argW2 (c : Dev nD) : Vec Ideal S32x32 .f32 := m ((c : Thread nD τ).loc main_arg8)
abbrev argb2 (c : Dev nD) : Vec Ideal S32 .f32 := m ((c : Thread nD τ).loc main_arg9)
abbrev argWo (c : Dev nD) : Vec Ideal S1x32 .f32 := m ((c : Thread nD τ).loc main_arg10)
abbrev argbo (c : Dev nD) : Vec Ideal S1 .f32 := m ((c : Thread nD τ).loc main_arg11)

abbrev blkBias (c : Dev nD) (t : Fin cfg0.N) : Vec Ideal S1x256 .f32 := iblk m c 3 t
abbrev blkUs (c : Dev nD) (t : Fin cfg0.N) : Vec Ideal S1024x1 .f32 := iblk m c 4 t
abbrev blkThem (c : Dev nD) (t : Fin cfg0.N) : Vec Ideal S1024x1 .f32 := iblk m c 5 t
abbrev blkW1 (c : Dev nD) (t : Fin cfg0.N) : Vec Ideal S512x32 .f32 := iblk m c 6 t
abbrev blkb1 (c : Dev nD) (t : Fin cfg0.N) : Vec Ideal S1x32 .f32 := iblk m c 7 t
abbrev blkW2 (c : Dev nD) (t : Fin cfg0.N) : Vec Ideal S32x32 .f32 := iblk m c 8 t
abbrev blkb2 (c : Dev nD) (t : Fin cfg0.N) : Vec Ideal S1x32 .f32 := iblk m c 9 t
abbrev blkWo (c : Dev nD) (t : Fin cfg0.N) : Vec Ideal S32x1 .f32 := iblk m c 10 t
abbrev blkbo (c : Dev nD) (t : Fin cfg0.N) : Vec Ideal S1x1 .f32 := iblk m c 11 t

/-- What the point before `t` left in the first accumulator. -/
abbrev prevW (c : Dev nD) (t : Fin cfg0.N) : Vec Ideal S1024x256 .f32 :=
  (outsAt0 m c (t.val - 1) (Nat.lt_of_le_of_lt (Nat.sub_le _ _) t.isLt)).2.1
/-- What the point before `t` left in the second accumulator. -/
abbrev prevB (c : Dev nD) (t : Fin cfg0.N) : Vec Ideal S1024x256 .f32 :=
  (outsAt0 m c (t.val - 1) (Nat.lt_of_le_of_lt (Nat.sub_le _ _) t.isLt)).2.2

/-- The kernel's result array on core `c`, as a function of the launch memory's arguments. -/
abbrev result (c : Dev nD) : Vec Ideal S4096x1 .f32 :=
  resultOf (argUs m c) (argThem m c) (argW m c) (argB m c) (argT m c) (argBias m c) (argW1 m c) (argb1 m c) (argW2 m c)
    (argb2 m c) (argWo m c) (argbo m c)

/-! ## The last K-step's accumulators are the updates of what the step before left -/

theorem accW_last_eq (c : Dev nD) (t : Fin cfg0.N) (h0 : ¬t.val % 41 = 0) (h1 : t.val % 41 = 40) :
    (outsAt0 m c t.val t.isLt).2.1 = k0_pay4 (F := Ideal) (blkT m c t) (blkW m c t) (prevW m c t) := by
  rw [outsAt0_C m c t h0 h1]
  dsimp only
  exact KPieces.accW_last ..

theorem accB_last_eq (c : Dev nD) (t : Fin cfg0.N) (h0 : ¬t.val % 41 = 0) (h1 : t.val % 41 = 40) :
    (outsAt0 m c t.val t.isLt).2.2 = k0_pay5 (F := Ideal) (blkT m c t) (blkB m c t) (prevB m c t) := by
  rw [outsAt0_C m c t h0 h1]
  dsimp only
  exact KPieces.accB_last ..

/-! ## The stored block, row by row -/

/-- Row `r` of the block the last K-step of a row tile stores is row `1024·(t/41) + r` of the result. -/
theorem stored_row (c : Dev nD) (t : Fin cfg0.N) (h0 : ¬t.val % 41 = 0) (h1 : t.val % 41 = 40) (r : Fin 1024) (u : Fin 1)
    (R : Fin 4096) (hR : R.val = 1024 * (t.val / 41) + r.val) :
    k0_pay6 (F := Ideal)
        (k0_pay7 (blkBias m c t) (k0_pay4 (blkT m c t) (blkW m c t) (prevW m c t)) (k0_pay5 (blkT m c t) (blkB m c t) (prevB m c t))
          (blkUs m c t) (blkThem m c t) (blkW1 m c t) (blkb1 m c t) (blkW2 m c t))
        (blkb2 m c t) (blkWo m c t) (blkbo m c t) (ix2 r u)
      = rowResult (argUs m c) (argThem m c) (argW m c) (argB m c) (argT m c) (argBias m c) (argW1 m c) (argb1 m c) (argW2 m c)
          (argb2 m c) (argWo m c) (argbo m c) R := by
  refine (KTail.tail_apply (blkBias m c t) (k0_pay4 (blkT m c t) (blkW m c t) (prevW m c t))
    (k0_pay5 (blkT m c t) (blkB m c t) (prevB m c t)) (blkUs m c t) (blkThem m c t) (blkW1 m c t) (blkb1 m c t) (blkW2 m c t)
    (blkb2 m c t) (blkWo m c t) (blkbo m c t) r u).trans ?_
  have eUs : blkUs m c t (ix2 r (0 : Fin 1)) = argUs m c (ix2 R (0 : Fin 1)) :=
    (KBlocks.blk4_apply m c t r 0 (ix2 R (0 : Fin 1)) hR).trans (congrFun (V_main_arg0 m c) (ix2 R (0 : Fin 1)))
  have eThem : blkThem m c t (ix2 r (0 : Fin 1)) = argThem m c (ix2 R (0 : Fin 1)) :=
    (KBlocks.blk5_apply m c t r 0 (ix2 R (0 : Fin 1)) hR).trans (congrFun (V_main_arg1 m c) (ix2 R (0 : Fin 1)))
  have eW : (fun j : Fin 256 => k0_pay4 (F := Ideal) (blkT m c t) (blkW m c t) (prevW m c t) (ix2 r j))
      = fun j => ∑ k : Fin 41024, argW m c (ix2 R k) * argT m c (ix2 j k) :=
    funext fun j => (congrFun (accW_last_eq m c t h0 h1).symm (ix2 r j)).trans (accW_final m c t h1 r j R hR)
  have eB : (fun j : Fin 256 => k0_pay5 (F := Ideal) (blkT m c t) (blkB m c t) (prevB m c t) (ix2 r j))
      = fun j => ∑ k : Fin 41024, argB m c (ix2 R k) * argT m c (ix2 j k) :=
    funext fun j => (congrFun (accB_last_eq m c t h0 h1).symm (ix2 r j)).trans (accB_final m c t h1 r j R hR)
  have eBias : (fun j : Fin 256 => blkBias m c t (ix2 (0 : Fin 1) j)) = fun j => argBias m c (ix1 j) :=
    funext fun j => (congrFun (KBlocks.blk3_eq m c t) (ix2 (0 : Fin 1) j)).trans (KHost.V_v4_apply m c 0 j)
  have eW1 : (fun (p : Fin 32) (h : Fin 512) => blkW1 m c t (ix2 h p)) = fun p h => argW1 m c (ix2 p h) :=
    funext fun p => funext fun h => (congrFun (KBlocks.blk6_eq m c t) (ix2 h p)).trans (KHost.V_v5_apply m c h p)
  have eb1 : (fun p : Fin 32 => blkb1 m c t (ix2 (0 : Fin 1) p)) = fun p => argb1 m c (ix1 p) :=
    funext fun p => (congrFun (KBlocks.blk7_eq m c t) (ix2 (0 : Fin 1) p)).trans (KHost.V_v8_apply m c 0 p)
  have eW2 : (fun (q p : Fin 32) => blkW2 m c t (ix2 p q)) = fun q p => argW2 m c (ix2 q p) :=
    funext fun q => funext fun p => (congrFun (KBlocks.blk8_eq m c t) (ix2 p q)).trans (KHost.V_v6_apply m c p q)
  have eb2 : (fun q : Fin 32 => blkb2 m c t (ix2 (0 : Fin 1) q)) = fun q => argb2 m c (ix1 q) :=
    funext fun q => (congrFun (KBlocks.blk9_eq m c t) (ix2 (0 : Fin 1) q)).trans (KHost.V_v9_apply m c 0 q)
  have eWo : (fun q : Fin 32 => blkWo m c t (ix2 q (0 : Fin 1))) = fun q => argWo m c (ix2 (0 : Fin 1) q) :=
    funext fun q => (congrFun (KBlocks.blk10_eq m c t) (ix2 q (0 : Fin 1))).trans (KHost.V_v7_apply m c q 0)
  have ebo : blkbo m c t (ix2 (0 : Fin 1) (0 : Fin 1)) = argbo m c (ix1 (0 : Fin 1)) :=
    (congrFun (KBlocks.blk11_eq m c t) (ix2 (0 : Fin 1) (0 : Fin 1))).trans (KHost.V_v10_apply m c 0 0)
  unfold rowResult
  rw [eUs, eThem, eW, eB, eBias, eW1, eb1, eW2, eb2, eWo, ebo]

/-! ## What a storing point writes back, the cover, and the array after the run -/

/-- The block index of the output window's row tile, decided over the grid (the point's row tile, column block 0). -/
theorem emb_out (t : Fin cfg0.N) (r : Fin 1024) (u : Fin 1) (R : Fin 4096) (hR : R.val = 1024 * (t.val / 41) + r.val) :
    ((cfg0.win 12).blk t).view.emb (ix2 r u) = (ix2 R (0 : Fin 1) : S4096x1.Idx) := by
  funext a
  apply Fin.ext
  match a with
  | ⟨0, _⟩ => show win0_12.index t 0 * 1024 + 1 * r.val = R.val; rw [(KBlocks.index12 t).1, hR]; omega
  | ⟨1, _⟩ => show win0_12.index t 1 * 1 + 1 * u.val = 0; rw [(KBlocks.index12 t).2]; have hu : u.val < 1 := u.isLt; omega

/-- WHAT A STORING POINT WRITES BACK is its block of `result`. -/
theorem flushed_eq (c : Dev nD) (t : Fin cfg0.N) (hf : (cfg0.win 12).flush t = true) :
    (dats m 0 c).flushed 12 t = ((cfg0.win 12).blk t).view.read (Elt Ideal) (result m c) := by
  have h1 : t.val % 41 = 40 := (flush0_12 t).mp hf
  have h0 : ¬t.val % 41 = 0 := by omega
  have hN : t.val < 164 := lt_of_lt_of_eq t.isLt N164
  rw [flushed12_C m c t h0 h1, KPieces.out_last]
  funext y
  obtain ⟨r, u, rfl⟩ : ∃ (r : Fin 1024) (u : Fin 1), y = ix2 r u := ⟨y 0, y 1, eq_ix2 y⟩
  have hRlt : 1024 * (t.val / 41) + r.val < 4096 := by have := r.isLt; omega
  rw [View.read_apply, emb_out t r u ⟨_, hRlt⟩ rfl]
  exact stored_row m c t h0 h1 r u ⟨_, hRlt⟩ rfl

/-- Every row of the array lies in the block of its row tile's storing point. -/
theorem cover (c : Dev nD) (i : S4096x1.Idx) :
    ∃ t : Fin cfg0.N, (cfg0.win 12).flush t = true ∧ i ∈ ((cfg0.win 12).blk t).view.set := by
  have hi0 : (i 0).val < 4096 := (i 0).isLt
  have hi1 : (i 1).val < 1 := (i 1).isLt
  have hlt : 41 * ((i 0).val / 1024) + 40 < cfg0.N := by rw [N164]; omega
  refine ⟨⟨41 * ((i 0).val / 1024) + 40, hlt⟩, (flush0_12 _).mpr (by show (41 * ((i 0).val / 1024) + 40) % 41 = 40; omega), ?_⟩
  show i ∈ ((View.whole main_v11).slice (win0_12.rect ⟨41 * ((i 0).val / 1024) + 40, hlt⟩)).set
  rw [View.set_slice_whole, Rect.mem_set_unit]
  intro a
  match a with
  | ⟨0, _⟩ =>
    show win0_12.index ⟨41 * ((i 0).val / 1024) + 40, hlt⟩ 0 * 1024 ≤ (i 0).val
      ∧ (i 0).val < win0_12.index ⟨41 * ((i 0).val / 1024) + 40, hlt⟩ 0 * 1024 + 1024
    rw [(KBlocks.index12 ⟨41 * ((i 0).val / 1024) + 40, hlt⟩).1]
    show (41 * ((i 0).val / 1024) + 40) / 41 * 1024 ≤ (i 0).val ∧ (i 0).val < (41 * ((i 0).val / 1024) + 40) / 41 * 1024 + 1024
    omega
  | ⟨1, _⟩ =>
    show win0_12.index ⟨41 * ((i 0).val / 1024) + 40, hlt⟩ 1 * 1 ≤ (i 1).val
      ∧ (i 1).val < win0_12.index ⟨41 * ((i 0).val / 1024) + 40, hlt⟩ 1 * 1 + 1
    rw [(KBlocks.index12 ⟨41 * ((i 0).val / 1024) + 40, hlt⟩).2]
    omega

/-- THE ARRAY after the run is `result`. -/
theorem final (c : Dev nD) : (dats m 0 c).arrAt 12 cfg0.N = result m c :=
  (dats m 0 c).arrAt_eq_of_cover 12 (result m c) (flushed_eq m c) (cover c)

/-- The kernel's run, read: the result array at `result`, the arguments unchanged. -/
theorem run : θ_run defs (onTc (τ := τ) (main (F := Ideal))) ⟨m, fun _ => 0, ρ⟩ fun r => ∀ c : Dev nD,
      r.2.mem ((c : Thread nD τ).loc main_v11) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩) (run_blocks m ρ)

end Cert.KFinal

end
-- ==== Proof.lean ====
/-
  The certificate's claim, assembled.

  The kernel computes, per 1024-row tile of the batch, the two feature transforms `w_in·W_inᵀ` and `b_in·W_inᵀ` by
  accumulating 41 blocks of 1024 columns of the contraction axis, which the host padded with zeros from 41024 to
  41984, and in the last block's step finishes the small clipped network on that tile. The reference does the same
  network with one product over all 41024 columns. On the extended reals the two agree entry by entry: the blocked sum
  regroups the plain one (addition is commutative and associative), the padded columns add `x·0 = 0`, a change of
  float format is the identity, and every later operation is the same function of one row. Both runs are stated at the
  same function `Cert.KFinal.resultOf` of the twelve arguments (the kernel's in Proof/KFinal.lean, the reference's
  row by row in Proof/RefRow.lean). The three frames are the generated ones (the reference's is its generated run
  with the result dropped), and the idealized kernel is the kernel's own text read on the extended reals, so nothing
  is owed for it.
-/
import proofs.«156463_j14499809591732_1_alg».proof.Defs
import proofs.«156463_j14499809591732_1_alg».proof.Proof.Gen.Kernel
import proofs.«156463_j14499809591732_1_alg».proof.Proof.Gen.Kernel.Skeleton
import proofs.«156463_j14499809591732_1_alg».proof.Proof.Gen.Kernel.Launch
import proofs.«156463_j14499809591732_1_alg».proof.Proof.Gen.Kernel.Points
import proofs.«156463_j14499809591732_1_alg».proof.Proof.Gen.Kernel.Frame
import proofs.«156463_j14499809591732_1_alg».proof.Proof.Gen.KernelIdeal
import proofs.«156463_j14499809591732_1_alg».proof.Proof.Gen.KernelIdeal.Skeleton
import proofs.«156463_j14499809591732_1_alg».proof.Proof.Gen.KernelIdeal.Launch
import proofs.«156463_j14499809591732_1_alg».proof.Proof.Gen.KernelIdeal.Points
import proofs.«156463_j14499809591732_1_alg».proof.Proof.Gen.KernelIdeal.Frame
import proofs.«156463_j14499809591732_1_alg».proof.Proof.Gen.ReferenceIdeal
import proofs.«156463_j14499809591732_1_alg».proof.Proof.Gen.Pre_finite_inputs
import proofs.«156463_j14499809591732_1_alg».proof.Proof.Gen.KernelIdeal.Value
import proofs.«156463_j14499809591732_1_alg».proof.Proof.Gen.ReferenceIdeal.Run
import proofs.«156463_j14499809591732_1_alg».proof.Proof.Gen.ReferenceIdeal.Read
import proofs.«156463_j14499809591732_1_alg».proof.Proof.RefRow
import proofs.«156463_j14499809591732_1_alg».proof.Proof.KFinal
import Idealize.ShloMosaic.Adequacy
import Idealize.ShloMosaic.Init

noncomputable section

namespace Cert.Proof

open Idealize.ShloMosaic Idealize.ShloMosaic.TcCoe Idealize.ShloMosaic.ValueIdx Idealize.SL.Sem

/-- The reference's last stage is `resultOf` of its arguments: entry by entry, each row's value. -/
theorem reference_eq (x0 : Vec Ideal Cert.ReferenceIdeal.S4096x1 .f32) (x1 : Vec Ideal Cert.ReferenceIdeal.S4096x1 .f32) (x2 : Vec Ideal Cert.ReferenceIdeal.S4096x41024 .f32) (x3 : Vec Ideal Cert.ReferenceIdeal.S4096x41024 .f32) (x4 : Vec Ideal Cert.ReferenceIdeal.S256x41024 .f32) (x5 : Vec Ideal Cert.ReferenceIdeal.S256 .f32) (x6 : Vec Ideal Cert.ReferenceIdeal.S32x512 .f32) (x7 : Vec Ideal Cert.ReferenceIdeal.S32 .f32) (x8 : Vec Ideal Cert.ReferenceIdeal.S32x32 .f32) (x9 : Vec Ideal Cert.ReferenceIdeal.S32 .f32) (x10 : Vec Ideal Cert.ReferenceIdeal.S1x32 .f32) (x11 : Vec Ideal Cert.ReferenceIdeal.S1 .f32) :
    Cert.ReferenceIdeal.Read.val_main_v34 (F := Ideal) x0 x1 x2 x3 x4 x5 x6 x7 x8 x9 x10 x11 = Cert.KFinal.resultOf x0 x1 x2 x3 x4 x5 x6 x7 x8 x9 x10 x11 := by
  funext i
  obtain ⟨r, u, rfl⟩ : ∃ (r : Fin 4096) (u : Fin 1), i = ix2 r u := ⟨i 0, i 1, eq_ix2 i⟩
  exact Cert.RefRow.result_apply x0 x1 x2 x3 x4 x5 x6 x7 x8 x9 x10 x11 r u

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The two idealized programs end with equal results: both at `resultOf` of arguments that agree. -/
theorem algebraic : Cert.algebraic_KernelIdeal_ReferenceIdeal := by
  intro m ρ m' ρ' _ hagree
  refine ⟨fun c => Cert.KFinal.result m c, Cert.KFinal.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v34_eq (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))).trans ?_
  rw [reference_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
